-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S128x1024 : Shape := ⟨2, ![128, 1024]⟩
abbrev S512x64x16 : Shape := ⟨3, ![512, 64, 16]⟩
abbrev S512x64 : Shape := ⟨2, ![512, 64]⟩
abbrev S128x64x16 : Shape := ⟨3, ![128, 64, 16]⟩
abbrev S32x64x16 : Shape := ⟨3, ![32, 64, 16]⟩
abbrev S128x64 : Shape := ⟨2, ![128, 64]⟩
abbrev S128x1x64x16 : Shape := ⟨4, ![128, 1, 64, 16]⟩
abbrev S1x32x64x16 : Shape := ⟨4, ![1, 32, 64, 16]⟩
abbrev S128x32x64x16 : Shape := ⟨4, ![128, 32, 64, 16]⟩
abbrev S128x32x64 : Shape := ⟨3, ![128, 32, 64]⟩
abbrev S512x1088 : Shape := ⟨2, ![512, 1088]⟩

abbrev nBuf : Space → Nat
  | .hbm => 7
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S512x64, .f32⟩
  | .hbm, ⟨6, _⟩ => ⟨S512x1088, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S128x64x16, .f32⟩
  | .local _ .vmem, ⟨6, _⟩ => ⟨S128x64x16, .f32⟩
  | .local _ .vmem, ⟨7, _⟩ => ⟨S32x64x16, .f32⟩
  | .local _ .vmem, ⟨8, _⟩ => ⟨S32x64x16, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x64x16_S1024x1024 : S1024x64x16.ShapeCasts S1024x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x64x16 : S512x1024.ShapeCasts S512x64x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x16_S128x64x16_0_0_0 : ∀ a, (![0, 0, 0] : Fin 3 → Nat) a + S128x64x16.size a ≤ S128x64x16.size a
  h_S128x64x16 : 0 < S128x64x16.numel
  shapeCasts_S128x64x16_S128x64x16 : S128x64x16.ShapeCasts S128x64x16
  inb_S32x64x16_S32x64x16_0_0_0 : ∀ a, (![0, 0, 0] : Fin 3 → Nat) a + S32x64x16.size a ≤ S32x64x16.size a
  h_S32x64x16 : 0 < S32x64x16.numel
  shapeCasts_S32x64x16_S32x64x16 : S32x64x16.ShapeCasts S32x64x16
  shapeCasts_S128x64x16_S128x1x64x16 : S128x64x16.ShapeCasts S128x1x64x16
  shapeCasts_S32x64x16_S1x32x64x16 : S32x64x16.ShapeCasts S1x32x64x16
  broadcasts_S128x1x64x16_S128x32x64x16 : S128x1x64x16.Broadcasts S128x32x64x16
  broadcasts_S1x32x64x16_S128x32x64x16 : S1x32x64x16.Broadcasts S128x32x64x16
  reduces_S128x32x64x16_S128x32x64 : S128x32x64x16.Reduces [3] S128x32x64
  reduces_S128x32x64_S128x64 : S128x32x64.Reduces [1] S128x64
  concatenates_S512x1024_S512x64_S512x1088_d1 : Shape.Concatenates [S512x1024, S512x64] S512x1088 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x16.size a ≤ S512x64x16.size a
  hwx1_0 : ∀ i : grid1.Coords, EltTy.bits .f32 = 32 ∨ (Rect.block (s := S512x64x16) S128x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x16.size a ≤ S512x64x16.size a
  hwx1_1 : ∀ i : grid1.Coords, EltTy.bits .f32 = 32 ∨ (Rect.block (s := S512x64x16) S32x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  bcast_S_S512x64 : S_.BroadcastsInDim S512x64 (![] : Fin 0 → Fin S512x64.rank)
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.K.Proj.lean ====
/-
  The projection region (custom_call 0) of the kernel program, at any float instance.

  The grid has four points; at point t the pipeline stages rows 128·t … 128·t+127 of the left operand (window 0),
  the whole 1024×1024 right operand (window 1, staged once) and the matching 128 output rows (window 2). The body
  loads the two operand blocks and stores their matrix product over the output block, so after the body at t the
  output's staging buffer holds the product of the two blocks and the operand buffers are as found. The proof data
  below say exactly that, for buffer contents `V` as the region finds them; the body's triple is run symbolically.
-/
import proofs.«145648_j42279658062013_1_alg».proof.Proof.Gen.Kernel.Launch
import proofs.«145648_j42279658062013_1_alg».proof.Proof.Gen.Kernel.Skeleton
import proofs.«145648_j42279658062013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at the contents `V`. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window whose body leaves its block in place holds that block whenever the body runs, fetched at
    that point or not (an unfetched window's block index has not moved). Window 0: the left operand's rows. -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- Window 1: the whole right operand, staged at the first point and kept. -/
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-- The body's three accesses, each the whole of its buffer. -/
abbrev rL : Rect S128x1024 := Rect.unit (s := S128x1024) ![0, 0] S128x1024.size inb_S128x1024_S128x1024_0_0
abbrev rR : Rect S1024x1024 := Rect.unit (s := S1024x1024) ![0, 0] S1024x1024.size inb_S1024x1024_S1024x1024_0_0

/-- What the body leaves in the output's staging buffer: its one store, the product of the two loaded blocks. -/
def pout (x0 : Vec F S128x1024 .f32) (x1 : Vec F S1024x1024 .f32) : Vec F S128x1024 .f32 :=
  View.canon [⟨rL, k0_pay1 (View.ld x0 rL) (View.ld x1 rR)⟩]

/-- The store covers the whole buffer. -/
theorem pcover (p0 : Vec F S128x1024 .f32) (y : S128x1024.Idx) :
    ∃ pc ∈ ([⟨rL, p0⟩] : List (View.Piece (Elt F) S128x1024 .f32)), y ∈ pc.1.set :=
  View.cover_of_tiled [⟨rL, p0⟩] S128x1024.size (by rfl) y

set_option maxHeartbeats 1000000 in
/-- The body on whole staging buffers: the operands' at contents `x0`, `x1`, the output's at anything. It ends with
    the operands' as they were and the output's at `pout x0 x1`. -/
theorem proj_kernel_run (c : Dev nD) (E : Set ℕ) (i : grid0.Coords)
    (arg1 : Memref sig .tc .vmem S128x1024 .f32) (harg1 : arg1.IsWhole) (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (pout x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (pcover _)

/-- The projection region's proof data on core `c`: the arrays as found (`V`); after the body at point `t` the operand
    buffers at their blocks and the output buffer at the blocks' product; the invariant the scoped rest and the
    generator register, untouched; nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pout (pblk V c 0 t) (pblk V c 1 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pout (pblk V c 0 t) (pblk V c 1 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d

/-- What the body is called with at point `t`, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t))

/-- The body at any point: the operand buffers hold their blocks, so the run applies; the invariant and the core's
    dues pass through unread. -/
theorem proj_body (c : Dev nD) (t : Fin cfg0.N) :
    pPre V c t ⊢ wp frame (wpE (defs₀ (F := F)) Variants.none c none) Set.univ (bodyAt0 t) (fun _ => pPost V c t) := by
  unfold pPre pPost bodyAt0
  simp only [pbefore0, pbefore1]
  rw [show (pdat V c).Φ t.succ = (pdat V c).Φ t.castSucc from rfl,
    show (pdat V c).owesAt () t.succ = (pdat V c).owesAt () t.castSucc from rfl,
    pafter0, pafter1, pafter2]
  iintro ⟨HΦ, Ho, ⟨%d0, H0⟩, ⟨%d1, H1⟩, ⟨%d2, H2⟩⟩
  iapply (proj_kernel_run c Set.univ _ _ _ _ _ _ _ (pblk V c 0 t) (pblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the projection region, at every point. -/
theorem proj_obligation (c : Dev nD) : BodyObligation (pdat (F := F) V c) (defs₀ (F := F)) Variants.none () Set.univ := fun t => by
  rw [bigSep_W0, bigSep_W0]
  exact proj_body V c t

end Cert.Kernel.Hand

end
-- ==== Proof.K.PairRuns.lean ====
/-
  The pairwise kernel's body, run on any staging buffers, in its two cases.

  The body first tests whether the second grid coordinate j is zero; if so it overwrites the accumulator scratch with
  zeros. Then, with u the 128-row block and v the 32-row block, it adds to the accumulator the sum over the 32 rows
  of exp(−Σ_k |u − v|), and stores the accumulator times 2⁻⁹ over the output block. So from an accumulator s the body
  leaves the accumulator at `k1_pay2 u v s'` and the output buffer at `k1_pay3` of that, where s' is the zero
  array when j = 0 (case A) and s otherwise (case B). The operand buffers are only read. Every access is the whole of
  its buffer, so a load after a store reads the stored value and the last store decides the final contents.
-/
import proofs.«145648_j42279658062013_1_alg».proof.Proof.Gen.Kernel.Launch
import proofs.«145648_j42279658062013_1_alg».proof.Proof.Gen.Kernel.Skeleton
import proofs.«145648_j42279658062013_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: "the second coordinate is zero". -/
abbrev condJ (i : grid1.Coords) : Prop :=
  (Scalar.cmpi .ne (Scalar.extui (Scalar.cmpi .eq (BitVec.ofNat 32 (i 1).val) 0#32)) 0#32) = 1#1

/-- It holds exactly at the first point of each run of 16 (the points with j = 0). -/
theorem hcondJ : ∀ t : Fin cfg1.N, condJ (grid1.coords t) ↔ t.val % 16 = 0 :=
  (by decide +kernel : ∀ t : Fin grid1.N, condJ (grid1.coords t) ↔ t.val % 16 = 0)

/-- The accumulator's and the output buffer's one access: the whole 128×64 buffer. -/
abbrev rO : Rect S128x64 := Rect.unit (s := S128x64) ![0, 0] S128x64.size inb_S128x64_S128x64_0_0

theorem hzO : (![0, 0] : Fin 2 → Nat) = fun _ => 0 := by
  funext a; match a with | ⟨0, _⟩ => rfl | ⟨1, _⟩ => rfl
theorem hzU : (![0, 0, 0] : Fin 3 → Nat) = fun _ => 0 := by
  funext a; match a with | ⟨0, _⟩ => rfl | ⟨1, _⟩ => rfl | ⟨2, _⟩ => rfl

/-- A single whole-buffer store covers the buffer, -/
theorem ocover (p0 : Vec F S128x64 .f32) (y : S128x64.Idx) :
    ∃ pc ∈ ([⟨rO, p0⟩] : List (View.Piece (Elt F) S128x64 .f32)), y ∈ pc.1.set :=
  View.cover_of_tiled [⟨rO, p0⟩] S128x64.size (by rfl) y

/-- and so does any list of stores whose last one is whole. -/
theorem ocover_cons (p0 : Vec F S128x64 .f32) (L : List (View.Piece (Elt F) S128x64 .f32)) (y : S128x64.Idx) :
    ∃ pc ∈ ((⟨rO, p0⟩ : View.Piece (Elt F) S128x64 .f32) :: L), y ∈ pc.1.set := by
  obtain ⟨pc, hpc, hy⟩ := ocover (F := F) p0 y
  exact ⟨pc, List.mem_cons.mpr (Or.inl (List.mem_singleton.mp hpc)), hy⟩

/-- A whole-buffer load after stores the last of which was whole reads that store's value. -/
theorem readCov_cons_whole {sg : RefSig} {κ : Kind} {sp : Space} (v : View sg κ sp S128x64 .f32)
    (w : Vec F S128x64 .f32) (L : List (View.Piece (Elt F) S128x64 .f32)) :
    v.readCov ((⟨rO, w⟩ : View.Piece (Elt F) S128x64 .f32) :: L) rO.toLoadRect = w := by
  rw [View.readCov_eq_canon_ld _ _ _ (ocover_cons w L), View.canon_cons_unit_zero hzO, View.ld_unit_zero hzO]

set_option maxHeartbeats 2000000 in
/-- Case A (j = 0): the accumulator is reset, whatever it held. -/
theorem pair_run_A (c : Dev nD) (E : Set ℕ) (i : grid1.Coords) (hc : condJ i)
    (arg2 : Memref sig .tc .vmem S128x64x16 .f32) (harg2 : arg2.IsWhole) (arg3 : Memref sig .tc .vmem S32x64x16 .f32) (harg3 : arg3.IsWhole)
    (arg4 : Memref sig .tc .vmem S128x64 .f32) (harg4 : arg4.IsWhole) (arg5 : Memref sig .tc .vmem S128x64 .f32) (harg5 : arg5.IsWhole)
    (u : Vec F S128x64x16 .f32) (v : Vec F S32x64x16 .f32) (K : PUnit → sProp 𝕄) :
    iprop(owns (c : Thread nD τ) arg2 fullShare u ∗ owns (c : Thread nD τ) arg3 fullShare v
        ∗ (∃ d, owns (c : Thread nD τ) arg4 fullShare d) ∗ (∃ d, owns (c : Thread nD τ) arg5 fullShare d)
        ∗ (iprop(owns (c : Thread nD τ) arg2 fullShare u ∗ owns (c : Thread nD τ) arg3 fullShare v
            ∗ owns (c : Thread nD τ) arg4 fullShare (k1_pay3 (k1_pay2 u v (k1_pay1 (F := F))))
            ∗ owns (c : Thread nD τ) arg5 fullShare (k1_pay2 u v (k1_pay1 (F := F)))) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (ocover _)]
    sl_unfold_words
    rw [View.canon_unit_zero hzO]
    repeat (rw [readCov_cons_whole])
    simp only [View.readAt_eq_ld, View.ld_unit_zero (S := S128x64x16) hzU, View.ld_unit_zero (S := S32x64x16) hzU, View.ld_unit_zero (S := S128x64) hzO]
  · iexists _; isplitr
    swap; · iexact H3
    ipureintro
    sl_unfold_words
    rw [View.read_writes_eq_canon _ _ _ (ocover_cons _ _), View.canon_cons_unit_zero hzO]
    repeat (rw [readCov_cons_whole])
    simp only [View.readAt_eq_ld, View.ld_unit_zero (S := S128x64x16) hzU, View.ld_unit_zero (S := S32x64x16) hzU, View.ld_unit_zero (S := S128x64) hzO]

set_option maxHeartbeats 2000000 in
/-- Case B (j ≠ 0): the accumulator is carried. -/
theorem pair_run_B (c : Dev nD) (E : Set ℕ) (i : grid1.Coords) (hc : ¬condJ i)
    (arg2 : Memref sig .tc .vmem S128x64x16 .f32) (harg2 : arg2.IsWhole) (arg3 : Memref sig .tc .vmem S32x64x16 .f32) (harg3 : arg3.IsWhole)
    (arg4 : Memref sig .tc .vmem S128x64 .f32) (harg4 : arg4.IsWhole) (arg5 : Memref sig .tc .vmem S128x64 .f32) (harg5 : arg5.IsWhole)
    (u : Vec F S128x64x16 .f32) (v : Vec F S32x64x16 .f32) (s : Vec F S128x64 .f32) (K : PUnit → sProp 𝕄) :
    iprop(owns (c : Thread nD τ) arg2 fullShare u ∗ owns (c : Thread nD τ) arg3 fullShare v
        ∗ (∃ d, owns (c : Thread nD τ) arg4 fullShare d) ∗ owns (c : Thread nD τ) arg5 fullShare s
        ∗ (iprop(owns (c : Thread nD τ) arg2 fullShare u ∗ owns (c : Thread nD τ) arg3 fullShare v
            ∗ owns (c : Thread nD τ) arg4 fullShare (k1_pay3 (k1_pay2 u v s))
            ∗ owns (c : Thread nD τ) arg5 fullShare (k1_pay2 u v s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (ocover _)]
    sl_unfold_words
    rw [View.canon_unit_zero hzO]
    repeat (rw [readCov_cons_whole])
    simp only [View.readAt_eq_ld, View.ld_unit_zero (S := S128x64x16) hzU, View.ld_unit_zero (S := S32x64x16) hzU, View.ld_unit_zero (S := S128x64) hzO]
  · iexists _; isplitr
    swap; · iexact H3
    ipureintro
    sl_unfold_words
    rw [View.read_writes_eq_canon _ _ _ (ocover_cons _ _), View.canon_cons_unit_zero hzO]
    repeat (rw [readCov_cons_whole])
    simp only [View.readAt_eq_ld, View.ld_unit_zero (S := S128x64x16) hzU, View.ld_unit_zero (S := S32x64x16) hzU, View.ld_unit_zero (S := S128x64) hzO]

end Cert.Kernel.Hand

end
-- ==== Proof.K.Pair.lean ====
/-
  The pairwise region (custom_call 1) of the kernel program, at any float instance.

  The grid is 4 × 16: point t = 16·i + j handles the i-th block of 128 rows (window 0, refetched when i changes)
  against the j-th block of 32 rows (window 1, refetched at every point), both blocks of ONE array, the reshaped
  projection; the output block (window 2) is the i-th 128 rows of the result and is written back at j = 15 only. The
  accumulator scratch is carried from point to point: `pacc n` is what it holds after the body at point n, namely
  `k1_pay2` of the two blocks and of the accumulator before, which is zero at j = 0 and `pacc (n − 1)` otherwise.
  The output buffer after point n holds `k1_pay3 (pacc n)`. Between points the region's invariant keeps the scratch
  at `pacc` of the point before (before the first point: at anything), the other scoped buffers at anything and the
  generator register at some state. The two operand windows each hold half of the shared array's full share.
-/
import proofs.«145648_j42279658062013_1_alg».proof.Proof.K.PairRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at the contents `V`. -/
def qblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window whose body leaves its block in place holds that block whenever the body runs. Window 0: the
    128-row block. -/
theorem qbefore0_of {c : Dev nD} (dat : Dat τ (Elt F) Unit ℕ (UR sig nD τ) ℕ cfg1 c) (hA : dat.A 0 = V c (Pipeline.arrRef spec1 0))
    (hafter : ∀ t, dat.after 0 t = qblk V c 0 t) (t : Fin cfg1.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- Window 1: the 32-row block. -/
theorem qbefore1_of {c : Dev nD} (dat : Dat τ (Elt F) Unit ℕ (UR sig nD τ) ℕ cfg1 c) (hA : dat.A 1 = V c (Pipeline.arrRef spec1 1))
    (hafter : ∀ t, dat.after 1 t = qblk V c 1 t) (t : Fin cfg1.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-- The accumulator scratch, a whole scoped buffer of the kernel's own. -/
abbrev scM : Memref sig .tc .vmem S128x64 .f32 := Memref.whole cc1_scratch0

/-- THE ACCUMULATION: what the scratch holds after the body at point `n`. -/
def pacc (c : Dev nD) : (n : ℕ) → n < cfg1.N → Vec F S128x64 .f32
  | 0, hn => k1_pay2 (qblk V c 0 ⟨0, hn⟩) (qblk V c 1 ⟨0, hn⟩) (k1_pay1 (F := F))
  | n + 1, hn => k1_pay2 (qblk V c 0 ⟨n + 1, hn⟩) (qblk V c 1 ⟨n + 1, hn⟩)
      (if (n + 1) % 16 = 0 then k1_pay1 (F := F) else pacc c n (Nat.lt_of_succ_lt hn))

/-- At the first point of a run of 16 the accumulator restarts from zero. -/
theorem pacc_reset (c : Dev nD) (t : Fin cfg1.N) (h0 : t.val % 16 = 0) :
    pacc V c t.val t.isLt = k1_pay2 (qblk V c 0 t) (qblk V c 1 t) (k1_pay1 (F := F)) := by
  obtain ⟨n, hn⟩ := t
  cases n with
  | zero => rfl
  | succ n => exact congrArg (k1_pay2 _ _) (if_pos h0)

/-- Elsewhere it continues from what the point before left. -/
theorem pacc_step (c : Dev nD) (t : Fin cfg1.N) (h0 : ¬t.val % 16 = 0) :
    pacc V c t.val t.isLt = k1_pay2 (qblk V c 0 t) (qblk V c 1 t) (pacc V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-- The core's scoped buffers that are no staging buffer of this region — the projection region's five staging
    buffers, at anything — with the accumulator scratch at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- The class's invariant (the scoped rest at anything, the generator register at some state), with the scratch
    spelt as a buffer owned at some contents. -/
theorem PhiA1_eq (c : Dev nD) :
    (Pipeline.ΦA spec1 c : sProp 𝕄) = iprop(scoped1 c (iprop(∃ d, owns (c : Thread nD τ) scM fullShare d)) ∗ (∃ r, prngReg c r)) := by
  unfold Pipeline.ΦA scoped1; rw [scopedRest1_eq]; simp only [scM, owns_whole]; try rfl

/-- The region's invariant before position `n`: before the first point the class's; afterwards the scratch at what
    the point before left in it. -/
def PhiS (c : Dev nD) : (n : ℕ) → n ≤ cfg1.N → sProp 𝕄
  | 0, _ => Pipeline.ΦA spec1 c
  | n + 1, hn => iprop(scoped1 c (owns (c : Thread nD τ) scM fullShare (pacc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM fullShare (pacc V c n hn)) ∗ (∃ r, prngReg c r)) := rfl

theorem PhiS_pos (c : Dev nD) (n : ℕ) (h : n ≤ cfg1.N) (hz : n ≠ 0) :
    PhiS V c n h = iprop(scoped1 c (owns (c : Thread nD τ) scM fullShare (pacc V c (n - 1) (by omega))) ∗ (∃ r, prngReg c r)) := by
  cases n with
  | zero => exact absurd rfl hz
  | succ n => rfl

/-- The pairwise region's proof data on core `c`. -/
def qdat (c : Dev nD) : Dat τ (Elt F) Unit ℕ (UR sig nD τ) ℕ cfg1 c where
  A w := V c (Pipeline.arrRef spec1 w)
  after w t := match w with
    | ⟨0, _⟩ => qblk V c 0 t
    | ⟨1, _⟩ => qblk V c 1 t
    | ⟨2, _⟩ => k1_pay3 (pacc V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem qA_eq (c : Dev nD) (w : Fin cfg1.W) : (qdat V c).A w = V c (Pipeline.arrRef spec1 w) := by
  dsimp only [qdat]

theorem PhiS_castSucc (c : Dev nD) (t : Fin cfg1.N) :
    (qdat V c).Φ t.castSucc = PhiS V c t.val (Nat.le_of_lt t.isLt) := by
  dsimp only [qdat]; simp only [Fin.coe_castSucc]

theorem qafter0 (c : Dev nD) (t : Fin cfg1.N) : (qdat V c).after 0 t = qblk V c 0 t := by dsimp only [qdat]
theorem qafter1 (c : Dev nD) (t : Fin cfg1.N) : (qdat V c).after 1 t = qblk V c 1 t := by dsimp only [qdat]
theorem qafter2 (c : Dev nD) (t : Fin cfg1.N) : (qdat V c).after 2 t = k1_pay3 (pacc V c t.val t.isLt) := by dsimp only [qdat]

theorem qbefore0 (c : Dev nD) (t : Fin cfg1.N) (d) : (qdat V c).before 0 t d = qblk V c 0 t :=
  qbefore0_of V (qdat V c) (qA_eq V c 0) (qafter0 V c) t d
theorem qbefore1 (c : Dev nD) (t : Fin cfg1.N) (d) : (qdat V c).before 1 t d = qblk V c 1 t :=
  qbefore1_of V (qdat V c) (qA_eq V c 1) (qafter1 V c) t d

/-- What the body is called with at point `t`, -/
def qPre (c : Dev nD) (t : Fin cfg1.N) : sProp 𝕄 :=
  iprop((qdat V c).Φ t.castSucc ∗ (qdat V c).owesAt () t.castSucc
    ∗ (∃ d, owns (c : Thread nD τ) (st1_0 t) fullShare ((qdat V c).before 0 t d))
    ∗ (∃ d, owns (c : Thread nD τ) (st1_1 t) fullShare ((qdat V c).before 1 t d))
    ∗ (∃ d, owns (c : Thread nD τ) (st1_2 t) fullShare ((qdat V c).before 2 t d)))

/-- and what it returns. -/
def qPost (c : Dev nD) (t : Fin cfg1.N) : sProp 𝕄 :=
  iprop((qdat V c).Φ t.succ ∗ (qdat V c).owesAt () t.succ
    ∗ owns (c : Thread nD τ) (st1_0 t) fullShare ((qdat V c).after 0 t)
    ∗ owns (c : Thread nD τ) (st1_1 t) fullShare ((qdat V c).after 1 t)
    ∗ owns (c : Thread nD τ) (st1_2 t) fullShare ((qdat V c).after 2 t))

set_option maxHeartbeats 1600000 in
/-- The body at any point: the operand buffers hold their blocks; the invariant hands the body the scratch at what
    the point before left (at anything before the first point) and takes it back at this point's contents; at j = 0
    the run that resets applies whatever the scratch held, elsewhere the run that carries it. -/
theorem pair_body (c : Dev nD) (t : Fin cfg1.N) :
    qPre V c t ⊢ wp frame (wpE (defs₀ (F := F)) Variants.none c none) Set.univ (bodyAt1 t) (fun _ => qPost V c t) := by
  unfold qPre qPost bodyAt1
  simp only [qbefore0, qbefore1]
  rw [show (qdat V c).owesAt () t.succ = (qdat V c).owesAt () t.castSucc from rfl,
    show (qdat V c).Φ t.succ = PhiS V c (t.val + 1) t.isLt from rfl, PhiS_succ,
    qafter0, qafter1, qafter2]
  by_cases h0 : t.val % 16 = 0
  · rw [pacc_reset V c t h0]
    by_cases hz : t.val = 0
    · rw [PhiS_castSucc V c t, PhiS_zero V c _ _ hz, PhiA1_eq]
      unfold scoped1
      iintro ⟨⟨⟨A1, A2, A3, A4, A5, HS⟩, Hg⟩, Ho, ⟨%d0, H0⟩, ⟨%d1, H1⟩, ⟨%d2, H2⟩⟩
      iapply (pair_run_A c Set.univ (grid1.coords t) ((hcondJ t).mpr h0) _ _ _ _ _ _ _ _ (qblk V c 0 t) (qblk V c 1 t) _)
      isplitl [H0]; · iexact H0
      isplitl [H1]; · iexact H1
      isplitl [H2]; · iexists _; iexact H2
      isplitl [HS]; · iexact HS
      iintro ⟨H0, H1, H2, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · rw [PhiS_castSucc V c t, PhiS_pos V c _ _ hz]
      unfold scoped1
      iintro ⟨⟨⟨A1, A2, A3, A4, A5, HS⟩, Hg⟩, Ho, ⟨%d0, H0⟩, ⟨%d1, H1⟩, ⟨%d2, H2⟩⟩
      iapply (pair_run_A c Set.univ (grid1.coords t) ((hcondJ t).mpr h0) _ _ _ _ _ _ _ _ (qblk V c 0 t) (qblk V c 1 t) _)
      isplitl [H0]; · iexact H0
      isplitl [H1]; · iexact H1
      isplitl [H2]; · iexists _; iexact H2
      isplitl [HS]; · iexists _; iexact HS
      iintro ⟨H0, H1, H2, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
  · have hz : t.val ≠ 0 := fun e => h0 (by rw [e])
    rw [pacc_step V c t h0, PhiS_castSucc V c t, PhiS_pos V c _ _ hz]
    unfold scoped1
    iintro ⟨⟨⟨A1, A2, A3, A4, A5, HS⟩, Hg⟩, Ho, ⟨%d0, H0⟩, ⟨%d1, H1⟩, ⟨%d2, H2⟩⟩
    iapply (pair_run_B c Set.univ (grid1.coords t) (fun h => h0 ((hcondJ t).mp h)) _ _ _ _ _ _ _ _ (qblk V c 0 t) (qblk V c 1 t) _ _)
    isplitl [H0]; · iexact H0
    isplitl [H1]; · iexact H1
    isplitl [H2]; · iexists _; iexact H2
    isplitl [HS]; · iexact HS
    iintro ⟨H0, H1, H2, HS⟩
    isplitl [A1 A2 A3 A4 A5 HS Hg]
    · isplitr [Hg]
      · isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexact H2

/-- The library's body obligation for the pairwise region, at every point. -/
theorem pair_obligation (c : Dev nD) : BodyObligation (qdat (F := F) V c) (defs₀ (F := F)) Variants.none () Set.univ := fun t => by
  rw [bigSep_W1, bigSep_W1]
  exact pair_body V c t

/-- Before the first point the invariant is the class's. -/
theorem pair_hin (c : Dev nD) : Pipeline.ΦA spec1 c ⊢ (qdat (F := F) V c).Φ 0 := by
  rw [show (qdat V c).Φ 0 = PhiS V c 0 (Nat.zero_le _) from rfl, PhiS_zero V c 0 _ rfl]

/-- After the last point the invariant gives the class's back: what the scratch holds is forgotten. -/
theorem pair_hout (c : Dev nD) : (qdat (F := F) V c).Φ (Fin.last cfg1.N) ⊢ Pipeline.ΦA spec1 c := by
  rw [show (qdat V c).Φ (Fin.last cfg1.N) = PhiS V c cfg1.N (Nat.le_refl _) from rfl,
    PhiS_pos V c _ _ (by rw [show cfg1.N = 64 from N_1]; decide), PhiA1_eq]
  unfold scoped1
  iintro ⟨⟨A1, A2, A3, A4, A5, HS⟩, Hg⟩
  isplitr [Hg]
  · isplitl [A1]; · iexact A1
    isplitl [A2]; · iexact A2
    isplitl [A3]; · iexact A3
    isplitl [A4]; · iexact A4
    isplitl [A5]; · iexact A5
    iexists _; iexact HS
  iexact Hg

end Cert.Kernel.Hand

end
-- ==== Proof.K.PairArrays.lean ====
/-
  The pairwise region's arrays: one operand array handed to two windows.

  Windows 0 and 1 both read the reshaped projection; window 2 writes the result array. At the region's entry the
  core holds each of its unscoped buffers whole at the full share. The operand array's full share is split in two
  halves, one per window (the windows only read it), the result array goes to window 2 at the full share, and the
  other unscoped buffers bypass the region. At the exit the two halves, still at the contents found (an operand
  array is never written), are joined again, and the result array is held at what the write-backs left.
-/
import proofs.«145648_j42279658062013_1_alg».proof.Proof.K.Pair

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays are the operand array and the result array. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  exact bigSep_eq_bigSepL_of_eq [main_v2, main_v3] (by decide) (by decide) _

/-- The region's arrays, window by window: the operand array at a half share twice, the result array whole. -/
theorem arrays1_eq (c : Dev nD) (Fa : (w : Fin cfg1.W) → Buf (Elt F) ((cfg1.win w).arr.view.loc (c : Thread nD τ))) :
    ((qdat V c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  unfold Dat.arrays
  rw [bigSep_W1, (arr_whole1 0).set_eq_univ, (arr_whole1 2).set_eq_univ]
  rfl

/-- ENTRY: the core's unscoped buffers at `V` give the region its arrays at the entry contents, the operand array's
    share halved between the two windows that read it, and the unscoped rest. -/
theorem shared_entry (c : Dev nD) :
    (unscopedBufs c (V c) : sProp 𝕄)
      ⊢ iprop((qdat V c).arrays (fun w => (qdat V c).arrAt w 0) ∗ Pipeline.unscopedRest spec1 c (V c)) := by
  rw [Pipeline.unscopedBufs_split₀ cfgs (1 : Fin 2) winFacts₀1.arr_unscoped c (V c), arrays1_eq]
  rw [show (Pipeline.arrBufs (cfgs (1 : Fin 2)).spec c (V c) : sProp 𝕄) = Pipeline.arrBufs spec1 c (V c) from rfl, arrBufs1_eq]
  iintro ⟨⟨H2, H3⟩, Hrest⟩
  ihave H2' := (pointsTo_share (PosShare.mem_left_op_right fullShare)).1 $$ H2
  icases H2' with ⟨Hl, Hr⟩
  isplitr [Hrest]
  · isplitl [Hl]; · iexact Hl
    isplitl [Hr]; · iexact Hr
    iexact H3
  iexact Hrest

/-- EXIT: the region's arrays after the last write-back and the unscoped rest are the core's unscoped buffers at
    any contents `V'` that agree with `V` off the result array and hold there what the write-backs left. -/
theorem shared_exit (c : Dev nD) (V' : (b : Ref sig .tc) → Buf (Elt F) ((c : Thread nD τ).loc b))
    (hout : V' main_v3 = (qdat V c).arrAt 2 cfg1.N) (hrest : ∀ b : Ref sig .tc, b ≠ main_v3 → V' b = V c b) :
    iprop((qdat V c).arrays (fun w => (qdat V c).arrAt w cfg1.N) ∗ Pipeline.unscopedRest spec1 c (V c))
      ⊢ (unscopedBufs c V' : sProp 𝕄) := by
  rw [Pipeline.unscopedBufs_split₀ cfgs (1 : Fin 2) winFacts₀1.arr_unscoped c V', arrays1_eq]
  rw [show (Pipeline.arrBufs (cfgs (1 : Fin 2)).spec c V' : sProp 𝕄) = Pipeline.arrBufs spec1 c V' from rfl, arrBufs1_eq,
    (qdat V c).arrAt_in 0 rfl cfg1.N, (qdat V c).arrAt_in 1 rfl cfg1.N, qA_eq, qA_eq, hout, hrest main_v2 (by decide)]
  have hR : (Pipeline.unscopedRest (Ix := Unit) (Name := ℕ) (U := UR sig nD τ) (Lvl := ℕ) (cfgs (1 : Fin 2)).spec c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨2, Finset.mem_univ _, e ▸ rfl⟩))]
  rw [hR]
  iintro ⟨⟨Hl, Hr, H3⟩, Hrest⟩
  isplitr [Hrest]
  · isplitl [Hl Hr]
    · iapply (pointsTo_share (PosShare.mem_left_op_right fullShare)).2
      isplitl [Hl]; · iexact Hl
      iexact Hr
    iexact H3
  iexact Hrest

end Cert.Kernel.Hand

end
-- ==== Proof.K.Run.lean ====
/-
  The kernel program's run, at any float instance: @main as five segments.

  @main reshapes the second argument, runs the projection region, reshapes its result, runs the pairwise region and
  concatenates the first argument with that region's result. Between two segments the core holds every unscoped
  buffer whole at known contents: `W0` the launch memory, `W1` after the first reshape, `W2` after the projection
  region (its output array at what its write-backs leave, everything else as entered), `W3` after the second
  reshape, `W4` after the pairwise region (only its result array changes), `W5` after the concatenation. Each region
  is entered from the contents before it and left at the contents after it; beside the buffers ride the generator
  register, at some state, and the fact that the core owes no other core anything. The launch theorem for a list of
  segments then gives: every weakly fair execution terminates, and every final memory holds each unscoped buffer at
  `W5`. The arguments are written by no segment, so `W5` holds them as launched.
-/
import proofs.«145648_j42279658062013_1_alg».proof.Proof.K.Proj
import proofs.«145648_j42279658062013_1_alg».proof.Proof.K.PairArrays
import proofs.«145648_j42279658062013_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the reshape of the second argument. -/
abbrev W1 : Dev nD → Valuation τ sig (Elt F) := fun c => StableHlo.after hostOps0 (W0 m c)
/-- The same read at the TensorCore's references: what the projection region finds. -/
abbrev X1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (pdat (X1 m) c).arrAt w cfg0.N
theorem W2_arr (c : Dev nD) (w : Fin cfg0.W) :
    W2 m c (Proc.devRef .tc (Pipeline.arrRef spec0 w)) = (pdat (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (pdat (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)

/-- After the reshape of the projection's result. -/
abbrev W3 : Dev nD → Valuation τ sig (Elt F) := fun c => StableHlo.after hostOps1 (W2 m c)
/-- What the pairwise region finds. -/
abbrev X3 : (c : Dev nD) → (b : Ref sig .tc) → Buf (Elt F) ((c : Thread nD τ).loc b) := fun c b => W3 m c b
/-- After the pairwise region: its result array at what the pipeline leaves, every other buffer as entered. -/
def W4 (c : Dev nD) : Valuation τ sig (Elt F) :=
  Function.update (W3 m c) (Proc.devRef .tc main_v3) ((qdat (X3 m) c).arrAt 2 cfg1.N)
theorem W4_out (c : Dev nD) : W4 m c (Proc.devRef .tc main_v3) = (qdat (X3 m) c).arrAt 2 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..
abbrev X4 : (c : Dev nD) → (b : Ref sig .tc) → Buf (Elt F) ((c : Thread nD τ).loc b) := fun c b => W4 m c b
/-- After the concatenation. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((pdat (X1 m) c).arrAt_in 0 rfl _).trans (pA_eq (X1 m) c 0))
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => pdat (X1 m) c
  | ⟨1, _⟩ => fun c => qdat (X3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region: entered from every unscoped buffer at `W1`, left at `W2`. Its arrays are distinct buffers,
    split out of the unscoped buffers at entry and put back at the exit contents; the generator register goes into
    the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (proj_obligation (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region: entered from every unscoped buffer at `W3`, left at `W4`. Two of its windows read one array,
    whose share is halved between them at entry and joined at the exit; the scratch accumulator lives in the
    region's invariant, which starts and ends as the class's; nothing is owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (pair_obligation (X3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := shared_entry (X3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (pair_hin (X3 m) c)
    unfold Pipeline.ΦA
    iintro ⟨Hp, -, Hr⟩
    isplitl [Hr]; · iexact Hr
    iexact Hp
  hout c := by
    rw [Pipeline.ownSems0_none]
    refine (pair_hout (X3 m) c).trans ?_
    unfold Pipeline.ΦA
    iintro ⟨Hr, Hp⟩
    isplitl [Hp]; · iexact Hp
    isplitr; · iempintro
    iexact Hr
  hexit c := by
    have hjoin := shared_exit (X3 m) c (X4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.Kernel.Hand

end
-- ==== Proof.KI.Proj.lean ====
/-
  The projection region (custom_call 0) of the kernel program, at any float instance.

  The grid has four points; at point t the pipeline stages rows 128·t … 128·t+127 of the left operand (window 0),
  the whole 1024×1024 right operand (window 1, staged once) and the matching 128 output rows (window 2). The body
  loads the two operand blocks and stores their matrix product over the output block, so after the body at t the
  output's staging buffer holds the product of the two blocks and the operand buffers are as found. The proof data
  below say exactly that, for buffer contents `V` as the region finds them; the body's triple is run symbolically.
-/
import proofs.«145648_j42279658062013_1_alg».proof.Proof.Gen.KernelIdeal.Launch
import proofs.«145648_j42279658062013_1_alg».proof.Proof.Gen.KernelIdeal.Skeleton
import proofs.«145648_j42279658062013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at the contents `V`. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window whose body leaves its block in place holds that block whenever the body runs, fetched at
    that point or not (an unfetched window's block index has not moved). Window 0: the left operand's rows. -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- Window 1: the whole right operand, staged at the first point and kept. -/
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-- The body's three accesses, each the whole of its buffer. -/
abbrev rL : Rect S128x1024 := Rect.unit (s := S128x1024) ![0, 0] S128x1024.size inb_S128x1024_S128x1024_0_0
abbrev rR : Rect S1024x1024 := Rect.unit (s := S1024x1024) ![0, 0] S1024x1024.size inb_S1024x1024_S1024x1024_0_0

/-- What the body leaves in the output's staging buffer: its one store, the product of the two loaded blocks. -/
def pout (x0 : Vec F S128x1024 .f32) (x1 : Vec F S1024x1024 .f32) : Vec F S128x1024 .f32 :=
  View.canon [⟨rL, k0_pay1 (View.ld x0 rL) (View.ld x1 rR)⟩]

/-- The store covers the whole buffer. -/
theorem pcover (p0 : Vec F S128x1024 .f32) (y : S128x1024.Idx) :
    ∃ pc ∈ ([⟨rL, p0⟩] : List (View.Piece (Elt F) S128x1024 .f32)), y ∈ pc.1.set :=
  View.cover_of_tiled [⟨rL, p0⟩] S128x1024.size (by rfl) y

set_option maxHeartbeats 1000000 in
/-- The body on whole staging buffers: the operands' at contents `x0`, `x1`, the output's at anything. It ends with
    the operands' as they were and the output's at `pout x0 x1`. -/
theorem proj_kernel_run (c : Dev nD) (E : Set ℕ) (i : grid0.Coords)
    (arg1 : Memref sig .tc .vmem S128x1024 .f32) (harg1 : arg1.IsWhole) (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (pout x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (pcover _)

/-- The projection region's proof data on core `c`: the arrays as found (`V`); after the body at point `t` the operand
    buffers at their blocks and the output buffer at the blocks' product; the invariant the scoped rest and the
    generator register, untouched; nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pout (pblk V c 0 t) (pblk V c 1 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pout (pblk V c 0 t) (pblk V c 1 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d

/-- What the body is called with at point `t`, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t))

/-- The body at any point: the operand buffers hold their blocks, so the run applies; the invariant and the core's
    dues pass through unread. -/
theorem proj_body (c : Dev nD) (t : Fin cfg0.N) :
    pPre V c t ⊢ wp frame (wpE (defs₀ (F := F)) Variants.none c none) Set.univ (bodyAt0 t) (fun _ => pPost V c t) := by
  unfold pPre pPost bodyAt0
  simp only [pbefore0, pbefore1]
  rw [show (pdat V c).Φ t.succ = (pdat V c).Φ t.castSucc from rfl,
    show (pdat V c).owesAt () t.succ = (pdat V c).owesAt () t.castSucc from rfl,
    pafter0, pafter1, pafter2]
  iintro ⟨HΦ, Ho, ⟨%d0, H0⟩, ⟨%d1, H1⟩, ⟨%d2, H2⟩⟩
  iapply (proj_kernel_run c Set.univ _ _ _ _ _ _ _ (pblk V c 0 t) (pblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the projection region, at every point. -/
theorem proj_obligation (c : Dev nD) : BodyObligation (pdat (F := F) V c) (defs₀ (F := F)) Variants.none () Set.univ := fun t => by
  rw [bigSep_W0, bigSep_W0]
  exact proj_body V c t

end Cert.KernelIdeal.Hand

end
-- ==== Proof.KI.PairRuns.lean ====
/-
  The pairwise kernel's body, run on any staging buffers, in its two cases.

  The body first tests whether the second grid coordinate j is zero; if so it overwrites the accumulator scratch with
  zeros. Then, with u the 128-row block and v the 32-row block, it adds to the accumulator the sum over the 32 rows
  of exp(−Σ_k |u − v|), and stores the accumulator times 2⁻⁹ over the output block. So from an accumulator s the body
  leaves the accumulator at `k1_pay2 u v s'` and the output buffer at `k1_pay3` of that, where s' is the zero
  array when j = 0 (case A) and s otherwise (case B). The operand buffers are only read. Every access is the whole of
  its buffer, so a load after a store reads the stored value and the last store decides the final contents.
-/
import proofs.«145648_j42279658062013_1_alg».proof.Proof.Gen.KernelIdeal.Launch
import proofs.«145648_j42279658062013_1_alg».proof.Proof.Gen.KernelIdeal.Skeleton
import proofs.«145648_j42279658062013_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: "the second coordinate is zero". -/
abbrev condJ (i : grid1.Coords) : Prop :=
  (Scalar.cmpi .ne (Scalar.extui (Scalar.cmpi .eq (BitVec.ofNat 32 (i 1).val) 0#32)) 0#32) = 1#1

/-- It holds exactly at the first point of each run of 16 (the points with j = 0). -/
theorem hcondJ : ∀ t : Fin cfg1.N, condJ (grid1.coords t) ↔ t.val % 16 = 0 :=
  (by decide +kernel : ∀ t : Fin grid1.N, condJ (grid1.coords t) ↔ t.val % 16 = 0)

/-- The accumulator's and the output buffer's one access: the whole 128×64 buffer. -/
abbrev rO : Rect S128x64 := Rect.unit (s := S128x64) ![0, 0] S128x64.size inb_S128x64_S128x64_0_0

theorem hzO : (![0, 0] : Fin 2 → Nat) = fun _ => 0 := by
  funext a; match a with | ⟨0, _⟩ => rfl | ⟨1, _⟩ => rfl
theorem hzU : (![0, 0, 0] : Fin 3 → Nat) = fun _ => 0 := by
  funext a; match a with | ⟨0, _⟩ => rfl | ⟨1, _⟩ => rfl | ⟨2, _⟩ => rfl

/-- A single whole-buffer store covers the buffer, -/
theorem ocover (p0 : Vec F S128x64 .f32) (y : S128x64.Idx) :
    ∃ pc ∈ ([⟨rO, p0⟩] : List (View.Piece (Elt F) S128x64 .f32)), y ∈ pc.1.set :=
  View.cover_of_tiled [⟨rO, p0⟩] S128x64.size (by rfl) y

/-- and so does any list of stores whose last one is whole. -/
theorem ocover_cons (p0 : Vec F S128x64 .f32) (L : List (View.Piece (Elt F) S128x64 .f32)) (y : S128x64.Idx) :
    ∃ pc ∈ ((⟨rO, p0⟩ : View.Piece (Elt F) S128x64 .f32) :: L), y ∈ pc.1.set := by
  obtain ⟨pc, hpc, hy⟩ := ocover (F := F) p0 y
  exact ⟨pc, List.mem_cons.mpr (Or.inl (List.mem_singleton.mp hpc)), hy⟩

/-- A whole-buffer load after stores the last of which was whole reads that store's value. -/
theorem readCov_cons_whole {sg : RefSig} {κ : Kind} {sp : Space} (v : View sg κ sp S128x64 .f32)
    (w : Vec F S128x64 .f32) (L : List (View.Piece (Elt F) S128x64 .f32)) :
    v.readCov ((⟨rO, w⟩ : View.Piece (Elt F) S128x64 .f32) :: L) rO.toLoadRect = w := by
  rw [View.readCov_eq_canon_ld _ _ _ (ocover_cons w L), View.canon_cons_unit_zero hzO, View.ld_unit_zero hzO]

set_option maxHeartbeats 2000000 in
/-- Case A (j = 0): the accumulator is reset, whatever it held. -/
theorem pair_run_A (c : Dev nD) (E : Set ℕ) (i : grid1.Coords) (hc : condJ i)
    (arg2 : Memref sig .tc .vmem S128x64x16 .f32) (harg2 : arg2.IsWhole) (arg3 : Memref sig .tc .vmem S32x64x16 .f32) (harg3 : arg3.IsWhole)
    (arg4 : Memref sig .tc .vmem S128x64 .f32) (harg4 : arg4.IsWhole) (arg5 : Memref sig .tc .vmem S128x64 .f32) (harg5 : arg5.IsWhole)
    (u : Vec F S128x64x16 .f32) (v : Vec F S32x64x16 .f32) (K : PUnit → sProp 𝕄) :
    iprop(owns (c : Thread nD τ) arg2 fullShare u ∗ owns (c : Thread nD τ) arg3 fullShare v
        ∗ (∃ d, owns (c : Thread nD τ) arg4 fullShare d) ∗ (∃ d, owns (c : Thread nD τ) arg5 fullShare d)
        ∗ (iprop(owns (c : Thread nD τ) arg2 fullShare u ∗ owns (c : Thread nD τ) arg3 fullShare v
            ∗ owns (c : Thread nD τ) arg4 fullShare (k1_pay3 (k1_pay2 u v (k1_pay1 (F := F))))
            ∗ owns (c : Thread nD τ) arg5 fullShare (k1_pay2 u v (k1_pay1 (F := F)))) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (ocover _)]
    sl_unfold_words
    rw [View.canon_unit_zero hzO]
    repeat (rw [readCov_cons_whole])
    simp only [View.readAt_eq_ld, View.ld_unit_zero (S := S128x64x16) hzU, View.ld_unit_zero (S := S32x64x16) hzU, View.ld_unit_zero (S := S128x64) hzO]
  · iexists _; isplitr
    swap; · iexact H3
    ipureintro
    sl_unfold_words
    rw [View.read_writes_eq_canon _ _ _ (ocover_cons _ _), View.canon_cons_unit_zero hzO]
    repeat (rw [readCov_cons_whole])
    simp only [View.readAt_eq_ld, View.ld_unit_zero (S := S128x64x16) hzU, View.ld_unit_zero (S := S32x64x16) hzU, View.ld_unit_zero (S := S128x64) hzO]

set_option maxHeartbeats 2000000 in
/-- Case B (j ≠ 0): the accumulator is carried. -/
theorem pair_run_B (c : Dev nD) (E : Set ℕ) (i : grid1.Coords) (hc : ¬condJ i)
    (arg2 : Memref sig .tc .vmem S128x64x16 .f32) (harg2 : arg2.IsWhole) (arg3 : Memref sig .tc .vmem S32x64x16 .f32) (harg3 : arg3.IsWhole)
    (arg4 : Memref sig .tc .vmem S128x64 .f32) (harg4 : arg4.IsWhole) (arg5 : Memref sig .tc .vmem S128x64 .f32) (harg5 : arg5.IsWhole)
    (u : Vec F S128x64x16 .f32) (v : Vec F S32x64x16 .f32) (s : Vec F S128x64 .f32) (K : PUnit → sProp 𝕄) :
    iprop(owns (c : Thread nD τ) arg2 fullShare u ∗ owns (c : Thread nD τ) arg3 fullShare v
        ∗ (∃ d, owns (c : Thread nD τ) arg4 fullShare d) ∗ owns (c : Thread nD τ) arg5 fullShare s
        ∗ (iprop(owns (c : Thread nD τ) arg2 fullShare u ∗ owns (c : Thread nD τ) arg3 fullShare v
            ∗ owns (c : Thread nD τ) arg4 fullShare (k1_pay3 (k1_pay2 u v s))
            ∗ owns (c : Thread nD τ) arg5 fullShare (k1_pay2 u v s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (ocover _)]
    sl_unfold_words
    rw [View.canon_unit_zero hzO]
    repeat (rw [readCov_cons_whole])
    simp only [View.readAt_eq_ld, View.ld_unit_zero (S := S128x64x16) hzU, View.ld_unit_zero (S := S32x64x16) hzU, View.ld_unit_zero (S := S128x64) hzO]
  · iexists _; isplitr
    swap; · iexact H3
    ipureintro
    sl_unfold_words
    rw [View.read_writes_eq_canon _ _ _ (ocover_cons _ _), View.canon_cons_unit_zero hzO]
    repeat (rw [readCov_cons_whole])
    simp only [View.readAt_eq_ld, View.ld_unit_zero (S := S128x64x16) hzU, View.ld_unit_zero (S := S32x64x16) hzU, View.ld_unit_zero (S := S128x64) hzO]

end Cert.KernelIdeal.Hand

end
-- ==== Proof.KI.Pair.lean ====
/-
  The pairwise region (custom_call 1) of the kernel program, at any float instance.

  The grid is 4 × 16: point t = 16·i + j handles the i-th block of 128 rows (window 0, refetched when i changes)
  against the j-th block of 32 rows (window 1, refetched at every point), both blocks of ONE array, the reshaped
  projection; the output block (window 2) is the i-th 128 rows of the result and is written back at j = 15 only. The
  accumulator scratch is carried from point to point: `pacc n` is what it holds after the body at point n, namely
  `k1_pay2` of the two blocks and of the accumulator before, which is zero at j = 0 and `pacc (n − 1)` otherwise.
  The output buffer after point n holds `k1_pay3 (pacc n)`. Between points the region's invariant keeps the scratch
  at `pacc` of the point before (before the first point: at anything), the other scoped buffers at anything and the
  generator register at some state. The two operand windows each hold half of the shared array's full share.
-/
import proofs.«145648_j42279658062013_1_alg».proof.Proof.KI.PairRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at the contents `V`. -/
def qblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window whose body leaves its block in place holds that block whenever the body runs. Window 0: the
    128-row block. -/
theorem qbefore0_of {c : Dev nD} (dat : Dat τ (Elt F) Unit ℕ (UR sig nD τ) ℕ cfg1 c) (hA : dat.A 0 = V c (Pipeline.arrRef spec1 0))
    (hafter : ∀ t, dat.after 0 t = qblk V c 0 t) (t : Fin cfg1.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- Window 1: the 32-row block. -/
theorem qbefore1_of {c : Dev nD} (dat : Dat τ (Elt F) Unit ℕ (UR sig nD τ) ℕ cfg1 c) (hA : dat.A 1 = V c (Pipeline.arrRef spec1 1))
    (hafter : ∀ t, dat.after 1 t = qblk V c 1 t) (t : Fin cfg1.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-- The accumulator scratch, a whole scoped buffer of the kernel's own. -/
abbrev scM : Memref sig .tc .vmem S128x64 .f32 := Memref.whole cc1_scratch0

/-- THE ACCUMULATION: what the scratch holds after the body at point `n`. -/
def pacc (c : Dev nD) : (n : ℕ) → n < cfg1.N → Vec F S128x64 .f32
  | 0, hn => k1_pay2 (qblk V c 0 ⟨0, hn⟩) (qblk V c 1 ⟨0, hn⟩) (k1_pay1 (F := F))
  | n + 1, hn => k1_pay2 (qblk V c 0 ⟨n + 1, hn⟩) (qblk V c 1 ⟨n + 1, hn⟩)
      (if (n + 1) % 16 = 0 then k1_pay1 (F := F) else pacc c n (Nat.lt_of_succ_lt hn))

/-- At the first point of a run of 16 the accumulator restarts from zero. -/
theorem pacc_reset (c : Dev nD) (t : Fin cfg1.N) (h0 : t.val % 16 = 0) :
    pacc V c t.val t.isLt = k1_pay2 (qblk V c 0 t) (qblk V c 1 t) (k1_pay1 (F := F)) := by
  obtain ⟨n, hn⟩ := t
  cases n with
  | zero => rfl
  | succ n => exact congrArg (k1_pay2 _ _) (if_pos h0)

/-- Elsewhere it continues from what the point before left. -/
theorem pacc_step (c : Dev nD) (t : Fin cfg1.N) (h0 : ¬t.val % 16 = 0) :
    pacc V c t.val t.isLt = k1_pay2 (qblk V c 0 t) (qblk V c 1 t) (pacc V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-- The core's scoped buffers that are no staging buffer of this region — the projection region's five staging
    buffers, at anything — with the accumulator scratch at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- The class's invariant (the scoped rest at anything, the generator register at some state), with the scratch
    spelt as a buffer owned at some contents. -/
theorem PhiA1_eq (c : Dev nD) :
    (Pipeline.ΦA spec1 c : sProp 𝕄) = iprop(scoped1 c (iprop(∃ d, owns (c : Thread nD τ) scM fullShare d)) ∗ (∃ r, prngReg c r)) := by
  unfold Pipeline.ΦA scoped1; rw [scopedRest1_eq]; simp only [scM, owns_whole]; try rfl

/-- The region's invariant before position `n`: before the first point the class's; afterwards the scratch at what
    the point before left in it. -/
def PhiS (c : Dev nD) : (n : ℕ) → n ≤ cfg1.N → sProp 𝕄
  | 0, _ => Pipeline.ΦA spec1 c
  | n + 1, hn => iprop(scoped1 c (owns (c : Thread nD τ) scM fullShare (pacc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM fullShare (pacc V c n hn)) ∗ (∃ r, prngReg c r)) := rfl

theorem PhiS_pos (c : Dev nD) (n : ℕ) (h : n ≤ cfg1.N) (hz : n ≠ 0) :
    PhiS V c n h = iprop(scoped1 c (owns (c : Thread nD τ) scM fullShare (pacc V c (n - 1) (by omega))) ∗ (∃ r, prngReg c r)) := by
  cases n with
  | zero => exact absurd rfl hz
  | succ n => rfl

/-- The pairwise region's proof data on core `c`. -/
def qdat (c : Dev nD) : Dat τ (Elt F) Unit ℕ (UR sig nD τ) ℕ cfg1 c where
  A w := V c (Pipeline.arrRef spec1 w)
  after w t := match w with
    | ⟨0, _⟩ => qblk V c 0 t
    | ⟨1, _⟩ => qblk V c 1 t
    | ⟨2, _⟩ => k1_pay3 (pacc V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem qA_eq (c : Dev nD) (w : Fin cfg1.W) : (qdat V c).A w = V c (Pipeline.arrRef spec1 w) := by
  dsimp only [qdat]

theorem PhiS_castSucc (c : Dev nD) (t : Fin cfg1.N) :
    (qdat V c).Φ t.castSucc = PhiS V c t.val (Nat.le_of_lt t.isLt) := by
  dsimp only [qdat]; simp only [Fin.coe_castSucc]

theorem qafter0 (c : Dev nD) (t : Fin cfg1.N) : (qdat V c).after 0 t = qblk V c 0 t := by dsimp only [qdat]
theorem qafter1 (c : Dev nD) (t : Fin cfg1.N) : (qdat V c).after 1 t = qblk V c 1 t := by dsimp only [qdat]
theorem qafter2 (c : Dev nD) (t : Fin cfg1.N) : (qdat V c).after 2 t = k1_pay3 (pacc V c t.val t.isLt) := by dsimp only [qdat]

theorem qbefore0 (c : Dev nD) (t : Fin cfg1.N) (d) : (qdat V c).before 0 t d = qblk V c 0 t :=
  qbefore0_of V (qdat V c) (qA_eq V c 0) (qafter0 V c) t d
theorem qbefore1 (c : Dev nD) (t : Fin cfg1.N) (d) : (qdat V c).before 1 t d = qblk V c 1 t :=
  qbefore1_of V (qdat V c) (qA_eq V c 1) (qafter1 V c) t d

/-- What the body is called with at point `t`, -/
def qPre (c : Dev nD) (t : Fin cfg1.N) : sProp 𝕄 :=
  iprop((qdat V c).Φ t.castSucc ∗ (qdat V c).owesAt () t.castSucc
    ∗ (∃ d, owns (c : Thread nD τ) (st1_0 t) fullShare ((qdat V c).before 0 t d))
    ∗ (∃ d, owns (c : Thread nD τ) (st1_1 t) fullShare ((qdat V c).before 1 t d))
    ∗ (∃ d, owns (c : Thread nD τ) (st1_2 t) fullShare ((qdat V c).before 2 t d)))

/-- and what it returns. -/
def qPost (c : Dev nD) (t : Fin cfg1.N) : sProp 𝕄 :=
  iprop((qdat V c).Φ t.succ ∗ (qdat V c).owesAt () t.succ
    ∗ owns (c : Thread nD τ) (st1_0 t) fullShare ((qdat V c).after 0 t)
    ∗ owns (c : Thread nD τ) (st1_1 t) fullShare ((qdat V c).after 1 t)
    ∗ owns (c : Thread nD τ) (st1_2 t) fullShare ((qdat V c).after 2 t))

set_option maxHeartbeats 1600000 in
/-- The body at any point: the operand buffers hold their blocks; the invariant hands the body the scratch at what
    the point before left (at anything before the first point) and takes it back at this point's contents; at j = 0
    the run that resets applies whatever the scratch held, elsewhere the run that carries it. -/
theorem pair_body (c : Dev nD) (t : Fin cfg1.N) :
    qPre V c t ⊢ wp frame (wpE (defs₀ (F := F)) Variants.none c none) Set.univ (bodyAt1 t) (fun _ => qPost V c t) := by
  unfold qPre qPost bodyAt1
  simp only [qbefore0, qbefore1]
  rw [show (qdat V c).owesAt () t.succ = (qdat V c).owesAt () t.castSucc from rfl,
    show (qdat V c).Φ t.succ = PhiS V c (t.val + 1) t.isLt from rfl, PhiS_succ,
    qafter0, qafter1, qafter2]
  by_cases h0 : t.val % 16 = 0
  · rw [pacc_reset V c t h0]
    by_cases hz : t.val = 0
    · rw [PhiS_castSucc V c t, PhiS_zero V c _ _ hz, PhiA1_eq]
      unfold scoped1
      iintro ⟨⟨⟨A1, A2, A3, A4, A5, HS⟩, Hg⟩, Ho, ⟨%d0, H0⟩, ⟨%d1, H1⟩, ⟨%d2, H2⟩⟩
      iapply (pair_run_A c Set.univ (grid1.coords t) ((hcondJ t).mpr h0) _ _ _ _ _ _ _ _ (qblk V c 0 t) (qblk V c 1 t) _)
      isplitl [H0]; · iexact H0
      isplitl [H1]; · iexact H1
      isplitl [H2]; · iexists _; iexact H2
      isplitl [HS]; · iexact HS
      iintro ⟨H0, H1, H2, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · rw [PhiS_castSucc V c t, PhiS_pos V c _ _ hz]
      unfold scoped1
      iintro ⟨⟨⟨A1, A2, A3, A4, A5, HS⟩, Hg⟩, Ho, ⟨%d0, H0⟩, ⟨%d1, H1⟩, ⟨%d2, H2⟩⟩
      iapply (pair_run_A c Set.univ (grid1.coords t) ((hcondJ t).mpr h0) _ _ _ _ _ _ _ _ (qblk V c 0 t) (qblk V c 1 t) _)
      isplitl [H0]; · iexact H0
      isplitl [H1]; · iexact H1
      isplitl [H2]; · iexists _; iexact H2
      isplitl [HS]; · iexists _; iexact HS
      iintro ⟨H0, H1, H2, HS⟩
      isplitl [A1 A2 A3 A4 A5 HS Hg]
      · isplitr [Hg]
        · isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
  · have hz : t.val ≠ 0 := fun e => h0 (by rw [e])
    rw [pacc_step V c t h0, PhiS_castSucc V c t, PhiS_pos V c _ _ hz]
    unfold scoped1
    iintro ⟨⟨⟨A1, A2, A3, A4, A5, HS⟩, Hg⟩, Ho, ⟨%d0, H0⟩, ⟨%d1, H1⟩, ⟨%d2, H2⟩⟩
    iapply (pair_run_B c Set.univ (grid1.coords t) (fun h => h0 ((hcondJ t).mp h)) _ _ _ _ _ _ _ _ (qblk V c 0 t) (qblk V c 1 t) _ _)
    isplitl [H0]; · iexact H0
    isplitl [H1]; · iexact H1
    isplitl [H2]; · iexists _; iexact H2
    isplitl [HS]; · iexact HS
    iintro ⟨H0, H1, H2, HS⟩
    isplitl [A1 A2 A3 A4 A5 HS Hg]
    · isplitr [Hg]
      · isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexact H2

/-- The library's body obligation for the pairwise region, at every point. -/
theorem pair_obligation (c : Dev nD) : BodyObligation (qdat (F := F) V c) (defs₀ (F := F)) Variants.none () Set.univ := fun t => by
  rw [bigSep_W1, bigSep_W1]
  exact pair_body V c t

/-- Before the first point the invariant is the class's. -/
theorem pair_hin (c : Dev nD) : Pipeline.ΦA spec1 c ⊢ (qdat (F := F) V c).Φ 0 := by
  rw [show (qdat V c).Φ 0 = PhiS V c 0 (Nat.zero_le _) from rfl, PhiS_zero V c 0 _ rfl]

/-- After the last point the invariant gives the class's back: what the scratch holds is forgotten. -/
theorem pair_hout (c : Dev nD) : (qdat (F := F) V c).Φ (Fin.last cfg1.N) ⊢ Pipeline.ΦA spec1 c := by
  rw [show (qdat V c).Φ (Fin.last cfg1.N) = PhiS V c cfg1.N (Nat.le_refl _) from rfl,
    PhiS_pos V c _ _ (by rw [show cfg1.N = 64 from N_1]; decide), PhiA1_eq]
  unfold scoped1
  iintro ⟨⟨A1, A2, A3, A4, A5, HS⟩, Hg⟩
  isplitr [Hg]
  · isplitl [A1]; · iexact A1
    isplitl [A2]; · iexact A2
    isplitl [A3]; · iexact A3
    isplitl [A4]; · iexact A4
    isplitl [A5]; · iexact A5
    iexists _; iexact HS
  iexact Hg

end Cert.KernelIdeal.Hand

end
-- ==== Proof.KI.PairArrays.lean ====
/-
  The pairwise region's arrays: one operand array handed to two windows.

  Windows 0 and 1 both read the reshaped projection; window 2 writes the result array. At the region's entry the
  core holds each of its unscoped buffers whole at the full share. The operand array's full share is split in two
  halves, one per window (the windows only read it), the result array goes to window 2 at the full share, and the
  other unscoped buffers bypass the region. At the exit the two halves, still at the contents found (an operand
  array is never written), are joined again, and the result array is held at what the write-backs left.
-/
import proofs.«145648_j42279658062013_1_alg».proof.Proof.KI.Pair

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays are the operand array and the result array. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  exact bigSep_eq_bigSepL_of_eq [main_v2, main_v3] (by decide) (by decide) _

/-- The region's arrays, window by window: the operand array at a half share twice, the result array whole. -/
theorem arrays1_eq (c : Dev nD) (Fa : (w : Fin cfg1.W) → Buf (Elt F) ((cfg1.win w).arr.view.loc (c : Thread nD τ))) :
    ((qdat V c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  unfold Dat.arrays
  rw [bigSep_W1, (arr_whole1 0).set_eq_univ, (arr_whole1 2).set_eq_univ]
  rfl

/-- ENTRY: the core's unscoped buffers at `V` give the region its arrays at the entry contents, the operand array's
    share halved between the two windows that read it, and the unscoped rest. -/
theorem shared_entry (c : Dev nD) :
    (unscopedBufs c (V c) : sProp 𝕄)
      ⊢ iprop((qdat V c).arrays (fun w => (qdat V c).arrAt w 0) ∗ Pipeline.unscopedRest spec1 c (V c)) := by
  rw [Pipeline.unscopedBufs_split₀ cfgs (1 : Fin 2) winFacts₀1.arr_unscoped c (V c), arrays1_eq]
  rw [show (Pipeline.arrBufs (cfgs (1 : Fin 2)).spec c (V c) : sProp 𝕄) = Pipeline.arrBufs spec1 c (V c) from rfl, arrBufs1_eq]
  iintro ⟨⟨H2, H3⟩, Hrest⟩
  ihave H2' := (pointsTo_share (PosShare.mem_left_op_right fullShare)).1 $$ H2
  icases H2' with ⟨Hl, Hr⟩
  isplitr [Hrest]
  · isplitl [Hl]; · iexact Hl
    isplitl [Hr]; · iexact Hr
    iexact H3
  iexact Hrest

/-- EXIT: the region's arrays after the last write-back and the unscoped rest are the core's unscoped buffers at
    any contents `V'` that agree with `V` off the result array and hold there what the write-backs left. -/
theorem shared_exit (c : Dev nD) (V' : (b : Ref sig .tc) → Buf (Elt F) ((c : Thread nD τ).loc b))
    (hout : V' main_v3 = (qdat V c).arrAt 2 cfg1.N) (hrest : ∀ b : Ref sig .tc, b ≠ main_v3 → V' b = V c b) :
    iprop((qdat V c).arrays (fun w => (qdat V c).arrAt w cfg1.N) ∗ Pipeline.unscopedRest spec1 c (V c))
      ⊢ (unscopedBufs c V' : sProp 𝕄) := by
  rw [Pipeline.unscopedBufs_split₀ cfgs (1 : Fin 2) winFacts₀1.arr_unscoped c V', arrays1_eq]
  rw [show (Pipeline.arrBufs (cfgs (1 : Fin 2)).spec c V' : sProp 𝕄) = Pipeline.arrBufs spec1 c V' from rfl, arrBufs1_eq,
    (qdat V c).arrAt_in 0 rfl cfg1.N, (qdat V c).arrAt_in 1 rfl cfg1.N, qA_eq, qA_eq, hout, hrest main_v2 (by decide)]
  have hR : (Pipeline.unscopedRest (Ix := Unit) (Name := ℕ) (U := UR sig nD τ) (Lvl := ℕ) (cfgs (1 : Fin 2)).spec c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨2, Finset.mem_univ _, e ▸ rfl⟩))]
  rw [hR]
  iintro ⟨⟨Hl, Hr, H3⟩, Hrest⟩
  isplitr [Hrest]
  · isplitl [Hl Hr]
    · iapply (pointsTo_share (PosShare.mem_left_op_right fullShare)).2
      isplitl [Hl]; · iexact Hl
      iexact Hr
    iexact H3
  iexact Hrest

end Cert.KernelIdeal.Hand

end
-- ==== Proof.KI.Run.lean ====
/-
  The kernel program's run, at any float instance: @main as five segments.

  @main reshapes the second argument, runs the projection region, reshapes its result, runs the pairwise region and
  concatenates the first argument with that region's result. Between two segments the core holds every unscoped
  buffer whole at known contents: `W0` the launch memory, `W1` after the first reshape, `W2` after the projection
  region (its output array at what its write-backs leave, everything else as entered), `W3` after the second
  reshape, `W4` after the pairwise region (only its result array changes), `W5` after the concatenation. Each region
  is entered from the contents before it and left at the contents after it; beside the buffers ride the generator
  register, at some state, and the fact that the core owes no other core anything. The launch theorem for a list of
  segments then gives: every weakly fair execution terminates, and every final memory holds each unscoped buffer at
  `W5`. The arguments are written by no segment, so `W5` holds them as launched.
-/
import proofs.«145648_j42279658062013_1_alg».proof.Proof.KI.Proj
import proofs.«145648_j42279658062013_1_alg».proof.Proof.KI.PairArrays
import proofs.«145648_j42279658062013_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the reshape of the second argument. -/
abbrev W1 : Dev nD → Valuation τ sig (Elt F) := fun c => StableHlo.after hostOps0 (W0 m c)
/-- The same read at the TensorCore's references: what the projection region finds. -/
abbrev X1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (pdat (X1 m) c).arrAt w cfg0.N
theorem W2_arr (c : Dev nD) (w : Fin cfg0.W) :
    W2 m c (Proc.devRef .tc (Pipeline.arrRef spec0 w)) = (pdat (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (pdat (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)

/-- After the reshape of the projection's result. -/
abbrev W3 : Dev nD → Valuation τ sig (Elt F) := fun c => StableHlo.after hostOps1 (W2 m c)
/-- What the pairwise region finds. -/
abbrev X3 : (c : Dev nD) → (b : Ref sig .tc) → Buf (Elt F) ((c : Thread nD τ).loc b) := fun c b => W3 m c b
/-- After the pairwise region: its result array at what the pipeline leaves, every other buffer as entered. -/
def W4 (c : Dev nD) : Valuation τ sig (Elt F) :=
  Function.update (W3 m c) (Proc.devRef .tc main_v3) ((qdat (X3 m) c).arrAt 2 cfg1.N)
theorem W4_out (c : Dev nD) : W4 m c (Proc.devRef .tc main_v3) = (qdat (X3 m) c).arrAt 2 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..
abbrev X4 : (c : Dev nD) → (b : Ref sig .tc) → Buf (Elt F) ((c : Thread nD τ).loc b) := fun c b => W4 m c b
/-- After the concatenation. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((pdat (X1 m) c).arrAt_in 0 rfl _).trans (pA_eq (X1 m) c 0))
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => pdat (X1 m) c
  | ⟨1, _⟩ => fun c => qdat (X3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region: entered from every unscoped buffer at `W1`, left at `W2`. Its arrays are distinct buffers,
    split out of the unscoped buffers at entry and put back at the exit contents; the generator register goes into
    the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (proj_obligation (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region: entered from every unscoped buffer at `W3`, left at `W4`. Two of its windows read one array,
    whose share is halved between them at entry and joined at the exit; the scratch accumulator lives in the
    region's invariant, which starts and ends as the class's; nothing is owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (pair_obligation (X3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := shared_entry (X3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (pair_hin (X3 m) c)
    unfold Pipeline.ΦA
    iintro ⟨Hp, -, Hr⟩
    isplitl [Hr]; · iexact Hr
    iexact Hp
  hout c := by
    rw [Pipeline.ownSems0_none]
    refine (pair_hout (X3 m) c).trans ?_
    unfold Pipeline.ΦA
    iintro ⟨Hr, Hp⟩
    isplitl [Hp]; · iexact Hp
    isplitr; · iempintro
    iexact Hr
  hexit c := by
    have hjoin := shared_exit (X3 m) c (X4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.KernelIdeal.Hand

end
-- ==== Proof.Spec.lean ====
/-
  What the two programs compute, as plain functions on the extended reals.

  `proj x w` is the matrix product of a 512×1024 array with a 1024×1024 array: entry (p, q) is Σ_k x(p,k)·w(k,q).
  `pair m`, for m of shape 512×64×16, is the minibatch-discrimination feature: entry (a, f) is
  (Σ_b exp(−Σ_k |m(a,f,k) − m(b,f,k)|)) · 2⁻⁹, the mean over the 512 rows b of the exponential of minus the L1 distance
  between rows a and b along the last axis. The absolute value is written `max d (−d)`, which is how both programs
  read it on the extended reals, and 2⁻⁹ is kept as the binary word the kernel multiplies by.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![512, 1024]⟩
abbrev SW : Shape := ⟨2, ![1024, 1024]⟩
abbrev SM : Shape := ⟨3, ![512, 64, 16]⟩
abbrev SO : Shape := ⟨2, ![512, 64]⟩

/-- Entry (p, q) of the product: the sum over the shared axis. -/
def proj (x : SX.Idx → EReal) (w : SW.Idx → EReal) : SX.Idx → EReal :=
  fun i => ∑ k : Fin 1024, x (ix2 (i 0) k) * w (ix2 k (i 1))

/-- The L1 distance between rows `a` and `b` of feature `f`, along the last axis. -/
def dist (m : SM.Idx → EReal) (a b : Fin 512) (f : Fin 64) : EReal :=
  ∑ k : Fin 16, max (m (ix3 a f k) - m (ix3 b f k)) (-(m (ix3 a f k) - m (ix3 b f k)))

/-- One pair's contribution: the exponential of minus the distance. -/
def kern (m : SM.Idx → EReal) (a b : Fin 512) (f : Fin 64) : EReal :=
  Ideal.exp (-(dist m a b f))

/-- Entry (a, f) of the feature: the sum over all rows `b`, times 2⁻⁹. -/
def pair (m : SM.Idx → EReal) : SO.Idx → EReal :=
  fun i => (∑ b : Fin 512, kern m (i 0) b (i 1)) * Ideal.ofBits .f32 0x3B000000#32

/-- The absolute value of a difference does not depend on the order of the two terms, on all of the extended reals
    (at ⊤ − ⊤ and ⊥ − ⊥ both orders give ⊥, whose absolute value is ⊤). -/
theorem abs_sub_comm (a b : EReal) : max (a - b) (-(a - b)) = max (b - a) (-(b - a)) := by
  induction a using EReal.rec with
  | bot =>
    induction b using EReal.rec with
    | bot => rfl
    | coe b => simp
    | top => simp
  | coe a =>
    induction b using EReal.rec with
    | bot => simp
    | coe b =>
      -- both differences are real and each is the negative of the other
      rw [max_comm]
      congr 1
      · rw [← EReal.coe_sub, ← EReal.coe_sub, ← EReal.coe_neg, neg_sub]
      · rw [← EReal.coe_sub, ← EReal.coe_sub, ← EReal.coe_neg, neg_sub]
    | top => simp
  | top =>
    induction b using EReal.rec with
    | bot => simp
    | coe b => simp
    | top => rfl

end Cert.Spec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KI.ProjValue.lean ====
/-
  The projection region's output array, at the ideal instance.

  The four grid points write back four disjoint blocks of 128 rows, which tile the 512-row output; block t is the
  product of rows 128·t … 128·t+127 of the left operand with the whole right operand. Entry by entry that is the
  sum over the shared axis, so the array ends as `Spec.proj` of the two operand arrays as the region found them.
-/
import proofs.«145648_j42279658062013_1_alg».proof.Proof.KI.Proj
import proofs.«145648_j42279658062013_1_alg».proof.Proof.Spec
import proofs.«145648_j42279658062013_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The two zero offsets of a whole-buffer access, as a constant function. -/
theorem proj_zero_offsets : (![0, 0] : Fin 2 → Nat) = fun _ => 0 := funext fun a => by fin_cases a <;> rfl

/-- The body's product at an entry: the sum over the shared axis of the two loaded blocks' entries. -/
theorem proj_pay_apply (x0 : Vec Ideal S128x1024 .f32) (x1 : Vec Ideal S1024x1024 .f32) (p : Fin 128) (q : Fin 1024) :
    k0_pay1 (F := Ideal) x0 x1 (ix2 p q) = ∑ k : Fin 1024, x0 (ix2 p k) * x1 (ix2 k q) := by
  unfold k0_pay1
  rw [shapeCast_self]
  exact Idealize.ShloMosaic.PlainDot.matmul_zero_apply 128 1024 1024 x0 x1 p q

/-- An entry of a block product is the entry of the whole product that sits in the block's row: when row `p` of the left
    block is row `i 0` of the left array and column `q` of the right block is column `i 1` of the right array. -/
theorem proj_blk_entry (x : S512x1024.Idx → EReal) (w : S1024x1024.Idx → EReal)
    (b0 : Vec Ideal S128x1024 .f32) (b1 : Vec Ideal S1024x1024 .f32) (i : S512x1024.Idx) (p : Fin 128) (q : Fin 1024)
    (h0 : ∀ k : Fin 1024, b0 (ix2 p k) = x (ix2 (i 0) k)) (h1 : ∀ k : Fin 1024, b1 (ix2 k q) = w (ix2 k (i 1))) :
    k0_pay1 (F := Ideal) b0 b1 (ix2 p q) = Cert.Spec.proj x w i := by
  rw [proj_pay_apply]
  exact Finset.sum_congr rfl fun k _ => by rw [h0, h1]

/-- The printed index maps, decided over the grid: the left operand's and the output's block index is (t, 0), the
    right operand's is (0, 0). -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays: the output block's entry (p, q)
    is the sum over the shared axis of row p of the left block, which is row 128·t + p of the left array, against
    column q of the right block, which is column q of the right array. -/
theorem proj_flushed_eq (c : Dev nD) (t : Fin cfg0.N) :
    (pdat (F := Ideal) V c).flushed 2 t
      = ((cfg0.win 2).blk t).view.read (Elt Ideal) (Cert.Spec.proj (V c main_arg0) (V c main_v0)) := by
  show (cfg0.win 2).cut (grid0.coords t) ((pdat V c).after 2 t) = _
  rw [pafter2]
  unfold pout
  rw [View.canon_unit_zero proj_zero_offsets]
  simp only [View.ld_unit_zero (S := S128x1024) proj_zero_offsets, View.ld_unit_zero (S := S1024x1024) proj_zero_offsets]
  obtain ⟨e00, e01, e10, e11, e20, e21⟩ := proj_idx_facts t
  funext y
  obtain ⟨p, q, rfl⟩ : ∃ (p : Fin 128) (q : Fin 1024), y = ix2 p q := ⟨y 0, y 1, eq_ix2 y⟩
  show k0_pay1 (F := Ideal) (pblk V c 0 t) (pblk V c 1 t) (ix2 p q)
    = Cert.Spec.proj (V c main_arg0) (V c main_v0) (((cfg0.win 2).blk t).view.emb (ix2 p q))
  refine proj_blk_entry (V c main_arg0) (V c main_v0) (pblk V c 0 t) (pblk V c 1 t) _ p q (fun k => ?_) (fun k => ?_)
  · show V c main_arg0 (((cfg0.win 0).blk t).view.emb (ix2 p k)) = _
    refine congrArg (V c main_arg0) (funext fun a => Fin.ext ?_)
    match a with
    | ⟨0, _⟩ =>
      show win0_0.index t (0 : Fin 2) * 128 + 1 * p.val = win0_2.index t (0 : Fin 2) * 128 + 1 * p.val
      omega
    | ⟨1, _⟩ =>
      show win0_0.index t (1 : Fin 2) * 1024 + 1 * k.val = k.val
      omega
  · show V c main_v0 (((cfg0.win 1).blk t).view.emb (ix2 k q)) = _
    refine congrArg (V c main_v0) (funext fun a => Fin.ext ?_)
    match a with
    | ⟨0, _⟩ =>
      show win0_1.index t (0 : Fin 2) * 1024 + 1 * k.val = k.val
      omega
    | ⟨1, _⟩ =>
      show win0_1.index t (1 : Fin 2) * 1024 + 1 * q.val = win0_2.index t (1 : Fin 2) * 1024 + 1 * q.val
      omega

/-- An index of the output array is in point `t`'s block exactly when each coordinate is in the block's range on its
    axis. -/
theorem proj_mem_blk (t : Fin cfg0.N) (i : S512x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v1).slice (win0_2.rect t)).set ↔ _
  rw [View.set_slice_whole, Rect.mem_set_unit]
  exact Iff.rfl

/-- The four blocks tile the output: row `r` lies in the block of point `r / 128`, and every point writes back. -/
theorem proj_cover (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  obtain ⟨t, ht⟩ : ∃ t : Fin cfg0.N, t.val = (i 0).val / 128 := ⟨⟨(i 0).val / 128, by rw [hN]; omega⟩, rfl⟩
  obtain ⟨-, -, -, -, e20, e21⟩ := proj_idx_facts t
  refine ⟨t, flush0_2 t, ?_⟩
  rw [proj_mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1024 ≤ (i 1).val ∧ (i 1).val < win0_2.index t (1 : Fin 2) * 1024 + 1024
    omega

/-- After the region, the output array holds the matrix product of the two operand arrays. -/
theorem proj_arr (c : Dev nD) :
    (pdat (F := Ideal) V c).arrAt 2 cfg0.N = Cert.Spec.proj (V c main_arg0) (V c main_v0) :=
  (pdat (F := Ideal) V c).arrAt_eq_of_cover 2 (Cert.Spec.proj (V c main_arg0) (V c main_v0))
    (fun t _ => proj_flushed_eq V c t) proj_cover

end Cert.KernelIdeal.Hand

end
-- ==== Proof.KI.PairPayload.lean ====
/-
  The pairwise body's three payloads, read at one index, at the ideal instance.

  `k1_pay1` is the zero array. `k1_pay2 u v s` at (p, f) is s(p, f) plus, over the 32 rows r of v, the exponential of
  minus the L1 distance Σ_k |u(p,f,k) − v(r,f,k)|: the reshapes and broadcasts only re-index, the two reductions are
  plain sums (their zero initial values add nothing), and 0 − d is −d. `k1_pay3 x` at (p, f) is x(p, f) times the
  word 2⁻⁹.
-/
import proofs.«145648_j42279658062013_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

namespace PairPayload

/-! ## The layout operations of the body, read at coordinates -/

/-- An `[a, b, c]` array cast to `[a, 1, b, c]` reads, at `(p, u, i, j)`, the operand at `(p, i, j)`: the unit axis
    contributes nothing to the row-major position. -/
theorem shapeCast_abc_a1bc_apply {α : Type} {a b c : ℕ} (x : (⟨3, ![a, b, c]⟩ : Shape).Idx → α)
    (h : (⟨3, ![a, b, c]⟩ : Shape).ShapeCasts ⟨4, ![a, 1, b, c]⟩) (p : Fin a) (u : Fin 1) (i : Fin b) (j : Fin c) :
    shapeCast ⟨4, ![a, 1, b, c]⟩ x h (ix4 p u i j) = x (ix3 p i j) :=
  shapeCast_apply x h _ _ (by
    have hu : u.val = 0 := by omega
    rw [Shape.rowMajor_val_four, Shape.rowMajor_val_three]
    show (p.val * b + i.val) * c + j.val = ((p.val * 1 + u.val) * b + i.val) * c + j.val
    rw [hu, Nat.mul_one, Nat.add_zero])

/-- An `[a, 1, b, c]` array broadcast to `[a, n, b, c]` reads, at `(p, r, i, j)`, the operand at `(p, 0, i, j)`. -/
theorem broadcastTo_a1bc_anbc_apply {α : Type} {a n b c : ℕ} (v : (⟨4, ![a, 1, b, c]⟩ : Shape).Idx → α)
    (h : (⟨4, ![a, 1, b, c]⟩ : Shape).Broadcasts ⟨4, ![a, n, b, c]⟩) (p : Fin a) (r : Fin n) (i : Fin b) (j : Fin c) :
    broadcastTo ⟨4, ![a, n, b, c]⟩ v h (ix4 p r i j) = v (ix4 p (0 : Fin 1) i j) := by
  refine broadcastTo_apply v h (ix4 p r i j) (ix4 p (0 : Fin 1) i j) fun ax => ?_
  match ax with
  | ⟨0, _⟩ =>
    show p.val = if a = 1 then 0 else p.val
    split
    · have := p.isLt; omega
    · rfl
  | ⟨1, _⟩ => rfl
  | ⟨2, _⟩ =>
    show i.val = if b = 1 then 0 else i.val
    split
    · have := i.isLt; omega
    · rfl
  | ⟨3, _⟩ =>
    show j.val = if c = 1 then 0 else j.val
    split
    · have := j.isLt; omega
    · rfl

/-- A `[1, n, b, c]` array broadcast to `[a, n, b, c]` reads, at `(p, r, i, j)`, the operand at `(0, r, i, j)`. -/
theorem broadcastTo_1nbc_anbc_apply {α : Type} {a n b c : ℕ} (v : (⟨4, ![1, n, b, c]⟩ : Shape).Idx → α)
    (h : (⟨4, ![1, n, b, c]⟩ : Shape).Broadcasts ⟨4, ![a, n, b, c]⟩) (p : Fin a) (r : Fin n) (i : Fin b) (j : Fin c) :
    broadcastTo ⟨4, ![a, n, b, c]⟩ v h (ix4 p r i j) = v (ix4 (0 : Fin 1) r i j) := by
  refine broadcastTo_apply v h (ix4 p r i j) (ix4 (0 : Fin 1) r i j) fun ax => ?_
  match ax with
  | ⟨0, _⟩ => rfl
  | ⟨1, _⟩ =>
    show r.val = if n = 1 then 0 else r.val
    split
    · have := r.isLt; omega
    · rfl
  | ⟨2, _⟩ =>
    show i.val = if b = 1 then 0 else i.val
    split
    · have := i.isLt; omega
    · rfl
  | ⟨3, _⟩ =>
    show j.val = if c = 1 then 0 else j.val
    split
    · have := j.isLt; omega
    · rfl

/-! ## Two more pointwise operations at an index, at the ideal instance -/

/-- An exponential at an index is the exponential of the element. -/
theorem exp_apply {s : Shape} {φ : FTy} (a : FVec Ideal s φ) (i : s.Idx) : exp a i = Ideal.exp (a i) := rfl
/-- An absolute value at an index is the larger of the element and its negative. -/
theorem absf_apply {s : Shape} {φ : FTy} (a : FVec Ideal s φ) (i : s.Idx) : absf a i = max (a i) (-(a i)) := rfl

end PairPayload

open PairPayload

/-- The reset value is zero everywhere. -/
theorem pay1_apply (p : Fin 128) (f : Fin 64) : k1_pay1 (F := Ideal) (ix2 p f) = 0 := by
  unfold k1_pay1
  rw [shapeCast_self]
  exact Ideal.ofBits_zero_f32

/-- One point's update of the accumulator, at an entry. -/
theorem pay2_apply (u : Vec Ideal S128x64x16 .f32) (v : Vec Ideal S32x64x16 .f32) (s : Vec Ideal S128x64 .f32) (p : Fin 128) (f : Fin 64) :
    k1_pay2 u v s (ix2 p f)
      = s (ix2 p f) + ∑ r : Fin 32, Ideal.exp (-(∑ k : Fin 16, max (u (ix3 p f k) - v (ix3 r f k)) (-(u (ix3 p f k) - v (ix3 r f k))))) := by
  unfold k1_pay2
  simp only [shapeCast_self]
  rw [addf_apply]
  refine congrArg (s (ix2 p f) + ·) ?_
  -- the outer reduction, over the 32 rows r: at (p, f) it reads its operand at (p, r, f)
  refine (Ideal.multiReduction_add_single _ _ reduces_S128x32x64_S128x64 _ _ (ix2 p f)).trans ?_
  show ∑ r : Fin 32, _ = _
  refine Finset.sum_congr rfl fun r _ => ?_
  have hl : reduces_S128x32x64_S128x64.lift (ix2 p f) r = ix3 (n0 := 128) (n1 := 32) (n2 := 64) p r f :=
    funext fun d => Fin.ext (by match d with | ⟨0, _⟩ => rfl | ⟨1, _⟩ => rfl | ⟨2, _⟩ => rfl)
  -- the exponential of 0 − d, which is −d
  rw [hl, exp_apply, subf_apply, broadcast_apply, Ideal.ofBits_def, Ideal.ofBits_zero_f32, zero_sub]
  refine congrArg (fun t => Ideal.exp (-t)) ?_
  -- the inner reduction, over the 16 lanes k: at (p, r, f) it reads its operand at (p, r, f, k)
  refine (Ideal.multiReduction_add_single _ _ reduces_S128x32x64x16_S128x32x64 _ _ (ix3 p r f)).trans ?_
  show ∑ k : Fin 16, _ = _
  refine Finset.sum_congr rfl fun k _ => ?_
  have hl2 : reduces_S128x32x64x16_S128x32x64.lift (ix3 p r f) k
      = ix4 (n0 := 128) (n1 := 32) (n2 := 64) (n3 := 16) p r f k :=
    funext fun d => Fin.ext (by match d with | ⟨0, _⟩ => rfl | ⟨1, _⟩ => rfl | ⟨2, _⟩ => rfl | ⟨3, _⟩ => rfl)
  -- the two broadcasts read u at (p, f, k) and v at (r, f, k)
  rw [hl2, absf_apply, subf_apply, broadcastTo_a1bc_anbc_apply, broadcastTo_1nbc_anbc_apply,
    shapeCast_abc_a1bc_apply, shapeCast_abc_1abc_apply]

/-- The output is the accumulator scaled by 2⁻⁹. -/
theorem pay3_apply (x : Vec Ideal S128x64 .f32) (p : Fin 128) (f : Fin 64) :
    k1_pay3 x (ix2 p f) = x (ix2 p f) * Ideal.ofBits .f32 0x3B000000#32 := by
  unfold k1_pay3
  rfl

end Cert.KernelIdeal.Hand

end
-- ==== Proof.KI.PairValue.lean ====
/-
  The pairwise region's output array, at the ideal instance.

  With M the 512×64×16 array the region reads, the block of window 0 at point 16·i + j is rows 128·i … 128·i+127 of M
  and the block of window 1 is rows 32·j … 32·j+31. By induction on j, after point 16·i + j the accumulator at (p, f)
  is the sum over the rows b < 32·(j+1) of exp(−dist(128·i + p, b)); at j = 15 that is the sum over all 512 rows.
  The output block is written back at j = 15 only, the four blocks written tile the 512 rows, and so the array ends
  as `Spec.pair M`.
-/
import proofs.«145648_j42279658062013_1_alg».proof.Proof.KI.Pair
import proofs.«145648_j42279658062013_1_alg».proof.Proof.KI.PairPayload
import proofs.«145648_j42279658062013_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided over the grid: at point t = 16·i + j the 128-row operand block and the output
    block have block index i on the row axis, the 32-row operand block has j, and every other axis has 0. -/
theorem pair_idx_facts : ∀ t : Fin cfg1.N,
    win1_0.index t (0 : Fin 3) = t.val / 16 ∧ win1_0.index t (1 : Fin 3) = 0 ∧ win1_0.index t (2 : Fin 3) = 0
    ∧ win1_1.index t (0 : Fin 3) = t.val % 16 ∧ win1_1.index t (1 : Fin 3) = 0 ∧ win1_1.index t (2 : Fin 3) = 0
    ∧ win1_2.index t (0 : Fin 2) = t.val / 16 ∧ win1_2.index t (1 : Fin 2) = 0 :=
  (by decide +kernel : ∀ t : Fin grid1.N, _)

/-- Row `p` of the 128-row block at point t is row 128·(t / 16) + p of the array. -/
theorem pair_blk0_apply (c : Dev nD) (t : Fin cfg1.N) (p : Fin 128) (f : Fin 64) (k : Fin 16) (a : Fin 512)
    (ha : a.val = 128 * (t.val / 16) + p.val) :
    qblk (F := Ideal) V c 0 t (ix3 p f k) = V c main_v2 (ix3 a f k) := by
  obtain ⟨e0, e1, e2, -⟩ := pair_idx_facts t
  show V c main_v2 (((cfg1.win 0).blk t).view.emb (ix3 p f k)) = _
  refine congrArg (V c main_v2) (funext fun d => Fin.ext ?_)
  match d with
  | ⟨0, _⟩ =>
    show win1_0.index t (0 : Fin 3) * 128 + 1 * p.val = a.val
    omega
  | ⟨1, _⟩ =>
    show win1_0.index t (1 : Fin 3) * 64 + 1 * f.val = f.val
    omega
  | ⟨2, _⟩ =>
    show win1_0.index t (2 : Fin 3) * 16 + 1 * k.val = k.val
    omega

/-- Row `r` of the 32-row block at point t is row 32·(t % 16) + r of the same array. -/
theorem pair_blk1_apply (c : Dev nD) (t : Fin cfg1.N) (r : Fin 32) (f : Fin 64) (k : Fin 16) (b : Fin 512)
    (hb : b.val = 32 * (t.val % 16) + r.val) :
    qblk (F := Ideal) V c 1 t (ix3 r f k) = V c main_v2 (ix3 b f k) := by
  obtain ⟨-, -, -, e0, e1, e2, -⟩ := pair_idx_facts t
  show V c main_v2 (((cfg1.win 1).blk t).view.emb (ix3 r f k)) = _
  refine congrArg (V c main_v2) (funext fun d => Fin.ext ?_)
  match d with
  | ⟨0, _⟩ =>
    show win1_1.index t (0 : Fin 3) * 32 + 1 * r.val = b.val
    omega
  | ⟨1, _⟩ =>
    show win1_1.index t (1 : Fin 3) * 64 + 1 * f.val = f.val
    omega
  | ⟨2, _⟩ =>
    show win1_1.index t (2 : Fin 3) * 16 + 1 * k.val = k.val
    omega

/-- Row `b`'s term of the feature at (a, f), for a row number that may lie past the array (then zero): sums over
    initial segments of the rows are sums of it over ranges of naturals. -/
def pair_rowTerm (M : Cert.Spec.SM.Idx → EReal) (a : Fin 512) (f : Fin 64) (b : ℕ) : EReal :=
  if h : b < 512 then Cert.Spec.kern M a ⟨b, h⟩ f else 0

/-- One point's update at an entry: the accumulator before plus the terms of the 32 rows of this point's block. -/
theorem pair_step_sum (c : Dev nD) (t : Fin cfg1.N) (p : Fin 128) (f : Fin 64) (a : Fin 512)
    (ha : a.val = 128 * (t.val / 16) + p.val) (s : Vec Ideal S128x64 .f32) :
    k1_pay2 (F := Ideal) (qblk V c 0 t) (qblk V c 1 t) s (ix2 p f)
      = s (ix2 p f) + ∑ r ∈ Finset.range 32, pair_rowTerm (V c main_v2) a f (32 * (t.val % 16) + r) := by
  have hN : cfg1.N = 64 := N_1
  have ht := t.isLt
  refine (pay2_apply _ _ s p f).trans ?_
  congr 1
  rw [← Fin.sum_univ_eq_sum_range (fun r => pair_rowTerm (V c main_v2) a f (32 * (t.val % 16) + r)) 32]
  refine Finset.sum_congr rfl fun r _ => ?_
  have hb : 32 * (t.val % 16) + r.val < 512 := by omega
  unfold pair_rowTerm
  rw [dif_pos hb]
  unfold Cert.Spec.kern Cert.Spec.dist
  refine congrArg Ideal.exp (congrArg Neg.neg (Finset.sum_congr rfl fun k _ => ?_))
  rw [pair_blk0_apply V c t p f k a ha, pair_blk1_apply V c t r f k ⟨_, hb⟩ rfl]

/-- THE INVARIANT: after the body at point n = 16·i + j the accumulator at (p, f) is the sum of the terms of the rows
    below 32·(j + 1), for the row a = 128·i + p of the 128-row block. At j = 0 the accumulator restarts from zero;
    elsewhere the point before left the sum over the rows below 32·j, and this point adds the next 32. -/
theorem pair_acc_eq (c : Dev nD) : ∀ (n : ℕ) (hn : n < cfg1.N) (p : Fin 128) (f : Fin 64) (a : Fin 512),
    a.val = 128 * (n / 16) + p.val →
    pacc (F := Ideal) V c n hn (ix2 p f) = ∑ b ∈ Finset.range (32 * (n % 16 + 1)), pair_rowTerm (V c main_v2) a f b
  | 0, hn, p, f, a, ha => by
    show k1_pay2 (F := Ideal) (qblk V c 0 ⟨0, hn⟩) (qblk V c 1 ⟨0, hn⟩) (k1_pay1 (F := Ideal)) (ix2 p f) = _
    refine (pair_step_sum V c ⟨0, hn⟩ p f a ha _).trans ?_
    rw [pay1_apply, zero_add]
    exact Finset.sum_congr rfl fun r _ => congrArg (pair_rowTerm (V c main_v2) a f) (by show 32 * (0 % 16) + r = r; omega)
  | n + 1, hn, p, f, a, ha => by
    show k1_pay2 (F := Ideal) (qblk V c 0 ⟨n + 1, hn⟩) (qblk V c 1 ⟨n + 1, hn⟩)
      (if (n + 1) % 16 = 0 then k1_pay1 (F := Ideal) else pacc V c n (Nat.lt_of_succ_lt hn)) (ix2 p f) = _
    refine (pair_step_sum V c ⟨n + 1, hn⟩ p f a ha _).trans ?_
    by_cases h0 : (n + 1) % 16 = 0
    · rw [if_pos h0, pay1_apply, zero_add]
      show ∑ r ∈ Finset.range 32, pair_rowTerm (V c main_v2) a f (32 * ((n + 1) % 16) + r) = _
      rw [h0]
      exact Finset.sum_congr rfl fun r _ => congrArg (pair_rowTerm (V c main_v2) a f) (by omega)
    · rw [if_neg h0, pair_acc_eq c n (Nat.lt_of_succ_lt hn) p f a (by omega)]
      show _ + ∑ r ∈ Finset.range 32, pair_rowTerm (V c main_v2) a f (32 * ((n + 1) % 16) + r) = _
      have e : (n + 1) % 16 = n % 16 + 1 := by omega
      rw [e, show 32 * (n % 16 + 1 + 1) = 32 * (n % 16 + 1) + 32 from by omega, Finset.sum_range_add]

/-- The output block's entry against the feature: the accumulator holding the sum over all 512 rows, scaled by 2⁻⁹,
    is the feature's entry in that row. -/
theorem pair_entry (M : Cert.Spec.SM.Idx → EReal) (x : Vec Ideal S128x64 .f32) (i : S512x64.Idx) (p : Fin 128) (f : Fin 64)
    (a : Fin 512) (h0 : i 0 = a) (h1 : i 1 = f)
    (hx : x (ix2 p f) = ∑ b ∈ Finset.range 512, pair_rowTerm M a f b) :
    k1_pay3 (F := Ideal) x (ix2 p f) = Cert.Spec.pair M i := by
  rw [pay3_apply, hx]
  show _ = (∑ b : Fin 512, Cert.Spec.kern M (i 0) b (i 1)) * _
  rw [h0, h1, ← Fin.sum_univ_eq_sum_range (fun b => pair_rowTerm M a f b) 512]
  refine congrArg (· * Ideal.ofBits .f32 0x3B000000#32) (Finset.sum_congr rfl fun b _ => ?_)
  show pair_rowTerm M a f b.val = _
  unfold pair_rowTerm
  rw [dif_pos b.isLt]

/-- What a writing point t = 16·i + 15 writes back is block i of the feature of the array the region read. -/
theorem pair_flushed_eq (c : Dev nD) (t : Fin cfg1.N) (hf : (cfg1.win 2).flush t = true) :
    (qdat (F := Ideal) V c).flushed 2 t
      = ((cfg1.win 2).blk t).view.read (Elt Ideal) (Cert.Spec.pair (V c main_v2)) := by
  have h15 : t.val % 16 = 15 := (flush1_2 t).mp hf
  have hN : cfg1.N = 64 := N_1
  have ht := t.isLt
  show (cfg1.win 2).cut (grid1.coords t) ((qdat V c).after 2 t) = _
  rw [qafter2]
  obtain ⟨-, -, -, -, -, -, e0, e1⟩ := pair_idx_facts t
  funext y
  obtain ⟨p, f, rfl⟩ : ∃ (p : Fin 128) (f : Fin 64), y = ix2 p f := ⟨y 0, y 1, eq_ix2 y⟩
  show k1_pay3 (F := Ideal) (pacc V c t.val t.isLt) (ix2 p f)
    = Cert.Spec.pair (V c main_v2) (((cfg1.win 2).blk t).view.emb (ix2 p f))
  have ha : 128 * (t.val / 16) + p.val < 512 := by omega
  refine pair_entry (V c main_v2) _ _ p f ⟨128 * (t.val / 16) + p.val, ha⟩ (Fin.ext ?_) (Fin.ext ?_) ?_
  · show win1_2.index t (0 : Fin 2) * 128 + 1 * p.val = 128 * (t.val / 16) + p.val
    omega
  · show win1_2.index t (1 : Fin 2) * 64 + 1 * f.val = f.val
    omega
  · rw [pair_acc_eq V c t.val t.isLt p f ⟨128 * (t.val / 16) + p.val, ha⟩ rfl, h15]

/-- An index of the output array is in point `t`'s block exactly when each coordinate is in the block's range on its
    axis. -/
theorem pair_mem_blk (t : Fin cfg1.N) (i : S512x64.Idx) :
    i ∈ ((cfg1.win 2).blk t).view.set ↔ ∀ a : Fin 2, win1_2.index t a * S128x64.size a ≤ (i a).val
      ∧ (i a).val < win1_2.index t a * S128x64.size a + S128x64.size a := by
  show i ∈ ((View.whole main_v3).slice (win1_2.rect t)).set ↔ _
  rw [View.set_slice_whole, Rect.mem_set_unit]
  exact Iff.rfl

/-- The four written blocks tile the output: row `r` lies in the block of the writing point 16·(r / 128) + 15. -/
theorem pair_cover (i : S512x64.Idx) :
    ∃ t : Fin cfg1.N, (cfg1.win 2).flush t = true ∧ i ∈ ((cfg1.win 2).blk t).view.set := by
  have hi0 : (i 0).val < 512 := (i 0).isLt
  have hi1 : (i 1).val < 64 := (i 1).isLt
  have hN : cfg1.N = 64 := N_1
  obtain ⟨t, ht⟩ : ∃ t : Fin cfg1.N, t.val = 16 * ((i 0).val / 128) + 15 :=
    ⟨⟨16 * ((i 0).val / 128) + 15, by rw [hN]; omega⟩, rfl⟩
  obtain ⟨-, -, -, -, -, -, e0, e1⟩ := pair_idx_facts t
  refine ⟨t, (flush1_2 t).mpr (by omega), ?_⟩
  rw [pair_mem_blk]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 64 ≤ (i 1).val ∧ (i 1).val < win1_2.index t (1 : Fin 2) * 64 + 64
    omega

/-- After the region, the output array holds the feature of the array the region read. -/
theorem pair_arr (c : Dev nD) :
    (qdat (F := Ideal) V c).arrAt 2 cfg1.N = Cert.Spec.pair (V c main_v2) :=
  (qdat (F := Ideal) V c).arrAt_eq_of_cover 2 (Cert.Spec.pair (V c main_v2))
    (fun t hf => pair_flushed_eq V c t hf) pair_cover

end Cert.KernelIdeal.Hand

end
-- ==== Proof.KI.Result.lean ====
/-
  The idealized kernel program's result, as a function of the two arguments.

  Following the five segments at the ideal instance: the first reshape reads the second argument as a 1024×1024
  array; the projection region leaves the matrix product of the first argument with it; the second reshape reads
  that product as a 512×64×16 array; the pairwise region leaves the feature of it; the concatenation joins the
  first argument, which nothing has written, with the feature along the second axis.
-/
import proofs.«145648_j42279658062013_1_alg».proof.Proof.KI.Run
import proofs.«145648_j42279658062013_1_alg».proof.Proof.KI.ProjValue
import proofs.«145648_j42279658062013_1_alg».proof.Proof.KI.PairValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-- What the projection region finds: the first argument as launched, -/
theorem X1_arg0 (c : Dev nD) : X1 m c main_arg0 = m ((c : Thread nD τ).loc main_arg0) :=
  StableHlo.after_of_writes_sub hostOps0 _ hostOps0_writes (by decide)

/-- and the second argument reshaped. -/
theorem X1_v0 (c : Dev nD) :
    X1 m c main_v0 = shapeCast S1024x1024 (m ((c : Thread nD τ).loc main_arg1)) shapeCasts_S1024x64x16_S1024x1024 := by
  show StableHlo.after hostOps0 (W0 m c) (Proc.devRef .tc main_v0) = _
  after_results <;> rfl

/-- What the pairwise region finds in its operand array: the projection's result, reshaped. -/
theorem X3_v2 (c : Dev nD) :
    X3 m c main_v2 = shapeCast S512x64x16 (W2 m c (Proc.devRef .tc main_v1)) shapeCasts_S512x1024_S512x64x16 := by
  show StableHlo.after hostOps1 (W2 m c) (Proc.devRef .tc main_v2) = _
  after_results <;> rfl

/-- The first argument is still as launched when the concatenation reads it. -/
theorem W4_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((pdat (X1 m) c).arrAt_in 0 rfl _).trans (pA_eq (X1 m) c 0))
    _ = m ((c : Thread nD τ).loc main_arg0) := X1_arg0 m c

/-- THE RESULT: the program's result buffer ends at the first argument joined with the feature of the reshaped
    product of the first argument and the reshaped second. -/
theorem result_eq (c : Dev nD) :
    W5 m c (Proc.devRef .tc main_v4)
      = concatenate S512x1088 1 [⟨S512x1024, m ((c : Thread nD τ).loc main_arg0)⟩,
          ⟨S512x64, Cert.Spec.pair (shapeCast S512x64x16
            (Cert.Spec.proj (m ((c : Thread nD τ).loc main_arg0))
              (shapeCast S1024x1024 (m ((c : Thread nD τ).loc main_arg1)) shapeCasts_S1024x64x16_S1024x1024))
            shapeCasts_S512x1024_S512x64x16)⟩] concatenates_S512x1024_S512x64_S512x1088_d1 := by
  have h5 : W5 m c (Proc.devRef .tc main_v4)
      = concatenate S512x1088 1 [⟨S512x1024, W4 m c (Proc.devRef .tc main_arg0)⟩, ⟨S512x64, W4 m c (Proc.devRef .tc main_v3)⟩]
          concatenates_S512x1024_S512x64_S512x1088_d1 := by
    show StableHlo.after hostOps2 (W4 m c) (Proc.devRef .tc main_v4) = _
    after_results <;> rfl
  have hv3 : W4 m c (Proc.devRef .tc main_v3) = Cert.Spec.pair (X3 m c main_v2) := (W4_out m c).trans (pair_arr (X3 m) c)
  have hv1 : W2 m c (Proc.devRef .tc main_v1) = Cert.Spec.proj (X1 m c main_arg0) (X1 m c main_v0) :=
    (W2_arr m c 2).trans (proj_arr (X1 m) c)
  rw [h5, W4_arg0, hv3, X3_v2, hv1, X1_arg0, X1_v0]

end Cert.KernelIdeal.Hand

end
-- ==== Proof.RefValue.lean ====
/-
  The reference program's result, read as the specification's functions.

  The reference forms m = reshape(x · reshape(T)) and then, for every pair of rows, the L1 distance along the last
  axis, its negated exponential, the sum over the second row index and the quotient by 512. Read at an index, its
  product stage is `Spec.proj` of the arguments and its last stage before the concatenation is `Spec.pair` of m:
  the order |m(b) − m(a)| against |m(a) − m(b)| is immaterial, adding the zero initial value of each sum changes
  nothing, and dividing by 512 is multiplying by 2⁻⁹ on every extended real.
-/
import proofs.«145648_j42279658062013_1_alg».proof.Defs
import proofs.«145648_j42279658062013_1_alg».proof.Proof.Gen.ReferenceIdeal.Run
import proofs.«145648_j42279658062013_1_alg».proof.Proof.Gen.ReferenceIdeal.Read
import proofs.«145648_j42279658062013_1_alg».proof.Proof.Spec

noncomputable section

open scoped BigOperators

namespace Cert.RefValue

open Cert.ReferenceIdeal Cert.ReferenceIdeal.Gen Cert.ReferenceIdeal.Read
open Idealize.ShloMosaic Idealize.ShloMosaic.ValueIdx

/-- The reference's matrix product is the specification's, of the left argument and the reshaped right one. -/
theorem ref_proj (x0 : (⟨S512x1024, .f32⟩ : BufTy).Contents (Elt Ideal)) (x1 : (⟨S1024x64x16, .f32⟩ : BufTy).Contents (Elt Ideal)) :
    val_main_v1 (F := Ideal) x0 x1 = Cert.Spec.proj x0 (val_main_v0 (F := Ideal) x1) := by
  funext i
  rw [val_main_v1_apply]
  unfold Cert.Spec.proj
  refine Finset.sum_congr rfl fun k _ => ?_
  -- the left factor is read at (row of i, k) and the right one at (k, column of i)
  have el : lidx_main_v1 i k = ix2 (n0 := 512) (n1 := 1024) (i 0) k :=
    funext fun a => Fin.ext (by match a with | ⟨0, _⟩ => rfl | ⟨1, _⟩ => rfl)
  have er : ridx_main_v1 i k = ix2 (n0 := 1024) (n1 := 1024) k (i 1) :=
    funext fun a => Fin.ext (by match a with | ⟨0, _⟩ => rfl | ⟨1, _⟩ => rfl)
  rw [el, er]

/-- The word `0x44000000` denotes the real 512 (sign 0, exponent 136 − 127 = 9, mantissa 0). -/
theorem ofBits_512 : Ideal.ofBits .f32 0x44000000#32 = ((512 : ℝ) : EReal) := by
  simp [Ideal.ofBits, Ideal.ieee, -EReal.coe_mul]; norm_num

/-- The word `0x3B000000` denotes the real 1/512 = 2⁻⁹ (sign 0, exponent 118 − 127 = −9, mantissa 0). -/
theorem ofBits_inv512 : Ideal.ofBits .f32 0x3B000000#32 = ((1 / 512 : ℝ) : EReal) := by
  simp [Ideal.ofBits, Ideal.ieee, -EReal.coe_mul]; norm_num

/-- The reference's mean of exponentials is the specification's feature of the reshaped product. -/
theorem ref_pair (x0 : (⟨S512x1024, .f32⟩ : BufTy).Contents (Elt Ideal)) (x1 : (⟨S1024x64x16, .f32⟩ : BufTy).Contents (Elt Ideal)) :
    val_main_v14 (F := Ideal) x0 x1 = Cert.Spec.pair (val_main_v2 (F := Ideal) x0 x1) := by
  funext i
  obtain ⟨a, f, rfl⟩ : ∃ (a : Fin 512) (f : Fin 64), i = ix2 a f := ⟨i 0, i 1, eq_ix2 i⟩
  -- read every stage at an index, down to the reshaped product m, which stays closed
  rw [val_main_v14_apply, val_main_v13_apply, val_main_cst_1_apply, val_main_v12_apply, val_main_cst_0_apply]
  simp only [val_main_v11_apply, val_main_v10_apply, val_main_v9_apply, val_main_cst_apply, val_main_v8_apply,
    val_main_v7_apply, val_main_v5_apply, val_main_v6_apply, val_main_v3_apply, val_main_v4_apply]
  unfold Cert.Spec.pair Cert.Spec.kern Cert.Spec.dist
  generalize val_main_v2 (F := Ideal) x0 x1 = m
  -- at (a, b, f, k) the two broadcasts read m at (b, f, k) and at (a, f, k)
  have hL : ∀ (b : Fin 512) (k : Fin 16),
      idx_main_v3 (idx_main_v5 (idx_main_v9 (idx_main_v12 (ix2 a f) b) k)) = ix3 (n0 := 512) (n1 := 64) (n2 := 16) b f k :=
    fun b k => funext fun d => Fin.ext (by match d with | ⟨0, _⟩ => rfl | ⟨1, _⟩ => rfl | ⟨2, _⟩ => rfl)
  have hR : ∀ (b : Fin 512) (k : Fin 16),
      idx_main_v4 (idx_main_v6 (idx_main_v9 (idx_main_v12 (ix2 a f) b) k)) = ix3 (n0 := 512) (n1 := 64) (n2 := 16) a f k :=
    fun b k => funext fun d => Fin.ext (by match d with | ⟨0, _⟩ => rfl | ⟨1, _⟩ => rfl | ⟨2, _⟩ => rfl)
  have h0 : (ix2 a f : Cert.Spec.SO.Idx) 0 = a := rfl
  have h1 : (ix2 a f : Cert.Spec.SO.Idx) 1 = f := rfl
  -- the operations are the extended reals'; the zero initial values drop, and the quotient by 512 is the product with 2⁻⁹
  simp only [hL, hR, h0, h1, Ideal.hostDivf_def, Ideal.hostUnary_exp_def, Ideal.hostNegf_def, Ideal.negf_def,
    Ideal.hostAbsf_def, Ideal.absf_def, Ideal.subf_def, Ideal.ofBits_def, Ideal.ofBits_zero_f32, zero_add,
    ofBits_512, ofBits_inv512, Ideal.div_coe (by norm_num : (512 : ℝ) ≠ 0)]
  -- what is left is |m(b,f,k) − m(a,f,k)| against |m(a,f,k) − m(b,f,k)|, term by term
  refine congrArg (· * _) (Finset.sum_congr rfl fun b _ => ?_)
  refine congrArg (fun t => Ideal.exp (-t)) (Finset.sum_congr rfl fun k _ => ?_)
  exact Cert.Spec.abs_sub_comm _ _

end Cert.RefValue

end
-- ==== Proof.lean ====
/-
  The certificate: minibatch discrimination, kernel against reference.

  Both programs form m = reshape(x · reshape(T)) (512×64×16) and return x joined along the second axis with the
  512×64 array o(a, f) = (Σ_b exp(−Σ_k |m(a,f,k) − m(b,f,k)|)) / 512. The kernel computes the product in a region of
  four grid points, one block of 128 rows each, and the feature in a region of 4 × 16 points that accumulates, for
  each block of 128 rows a, the partial sums over 16 blocks of 32 rows b in a scratch buffer, multiplying by 2⁻⁹ at
  the end; the reference computes both with whole-array operations. On the extended reals the two agree at every
  entry: a product accumulated into zero is the plain sum over the shared axis, a sum taken block by block is the
  whole sum, |u − v| = |v − u|, and dividing by 512 is multiplying by 2⁻⁹. None of these uses finiteness of the
  inputs. The three frame conjuncts are the runs of the three programs with the values dropped; the idealization
  rewrote nothing, so `preserves` is trivial.
-/
import proofs.«145648_j42279658062013_1_alg».proof.Defs
import proofs.«145648_j42279658062013_1_alg».proof.Proof.Gen.Kernel
import proofs.«145648_j42279658062013_1_alg».proof.Proof.Gen.KernelIdeal
import proofs.«145648_j42279658062013_1_alg».proof.Proof.Gen.ReferenceIdeal
import proofs.«145648_j42279658062013_1_alg».proof.Proof.Gen.Pre_finite_inputs
import proofs.«145648_j42279658062013_1_alg».proof.Proof.Gen.ReferenceIdeal.Run
import proofs.«145648_j42279658062013_1_alg».proof.Proof.Gen.ReferenceIdeal.Read
import proofs.«145648_j42279658062013_1_alg».proof.Proof.K.Run
import proofs.«145648_j42279658062013_1_alg».proof.Proof.KI.Run
import proofs.«145648_j42279658062013_1_alg».proof.Proof.KI.Result
import proofs.«145648_j42279658062013_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result buffer at the first
    argument joined with the feature of the reshaped product: the kernel by following its five segments, the
    reference by reading its run one operation at a time. -/
theorem algebraic : Cert.algebraic_KernelIdeal_ReferenceIdeal := by
  intro m ρ m' ρ' _ hagree
  refine ⟨fun c => Cert.KernelIdeal.Hand.W5 m c (Proc.devRef .tc Cert.KernelIdeal.main_v4), ?_, ?_⟩
  · exact (θ_run Cert.KernelIdeal.defs _ _).mono (fun _ h c =>
      ⟨h c _ (Cert.KernelIdeal.Hand.mem_uc Cert.KernelIdeal.main_v4 (by decide)),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    refine ((Cert.ReferenceIdeal.Read.val_main_v15_eq _ _).trans ?_).trans (Cert.KernelIdeal.Hand.result_eq m c).symm
    unfold Cert.ReferenceIdeal.Read.val_main_v15
    rw [Cert.RefValue.ref_pair]
    unfold Cert.ReferenceIdeal.Read.val_main_v2
    rw [Cert.RefValue.ref_proj]
    unfold Cert.ReferenceIdeal.Read.val_main_v0
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
